-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x600000 : Shape := ⟨2, ![2, 600000]⟩
abbrev S2x200000 : Shape := ⟨2, ![2, 200000]⟩
abbrev S100000x128 : Shape := ⟨2, ![100000, 128]⟩
abbrev S128x128 : Shape := ⟨2, ![128, 128]⟩
abbrev S128 : Shape := ⟨1, ![128]⟩
abbrev S256x1 : Shape := ⟨2, ![256, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S256x1 .f32) (main_arg10 : FVec F S1 .f32) (main_v33 : IVec S_ 1) : IVec S_ 1 :=
  let main_v34 : FVec F S256x1 .f32 := Host.absf main_arg9
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S128x128 .f32) (main_arg7 : FVec F S128 .f32) (main_arg8 : FVec F S128x128 .f32) (main_arg9 : FVec F S256x1 .f32) (main_arg10 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_v33

def fn {F : FTy → Type} [FloatOps F] (main_arg0 : IVec S2x600000 32) (main_arg1 : IVec S2x200000 32) (main_arg2 : FVec F S100000x128 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S256x1 .f32) (main_arg10 : FVec F S1 .f32) : IVec S_ 1 :=
  let main_v0 : FVec F S100000x128 .f32 := Host.absf main_arg2
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S2x600000 : Shape := ⟨2, ![2, 600000]⟩
abbrev S2x200000 : Shape := ⟨2, ![2, 200000]⟩
abbrev S100000x128 : Shape := ⟨2, ![100000, 128]⟩
abbrev S128x128 : Shape := ⟨2, ![128, 128]⟩
abbrev S128 : Shape := ⟨1, ![128]⟩
abbrev S256x1 : Shape := ⟨2, ![256, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S600000x128 : Shape := ⟨2, ![600000, 128]⟩
abbrev S100000x1 : Shape := ⟨2, ![100000, 1]⟩
abbrev S1x128 : Shape := ⟨2, ![1, 128]⟩
abbrev S5000x128 : Shape := ⟨2, ![5000, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩
abbrev S128x1 : Shape := ⟨2, ![128, 1]⟩
abbrev S1x1 : Shape := ⟨2, ![1, 1]⟩
abbrev S10000x128 : Shape := ⟨2, ![10000, 128]⟩
abbrev S10000x1 : Shape := ⟨2, ![10000, 1]⟩

abbrev nBuf : Space → Nat
  | .hbm => 90
  | .vmem => 27
  | .smem => 0
  | _ => 0

abbrev bufTy : (tb : Table) → Fin (tcTables nBuf tb) → BufTy
  | .hbm, ⟨0, _⟩ => ⟨S2x600000, .i32⟩
  | .hbm, ⟨1, _⟩ => ⟨S2x200000, .i32⟩
  | .hbm, ⟨2, _⟩ => ⟨S100000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S256x1, .f32⟩
  | .hbm, ⟨10, _⟩ => ⟨S1, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .f32⟩
  | .hbm, ⟨16, _⟩ => ⟨S600000, .f32⟩
  | .hbm, ⟨17, _⟩ => ⟨S_, .f32⟩
  | .hbm, ⟨18, _⟩ => ⟨S100000, .f32⟩
  | .hbm, ⟨19, _⟩ => ⟨S600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S600000, .i32⟩
  | .hbm, ⟨29, _⟩ => ⟨S600000, .i1⟩
  | .hbm, ⟨30, _⟩ => ⟨S_, .i32⟩
  | .hbm, ⟨31, _⟩ => ⟨S600000, .i32⟩
  | .hbm, ⟨32, _⟩ => ⟨S600000, .i32⟩
  | .hbm, ⟨33, _⟩ => ⟨S600000, .i32⟩
  | .hbm, ⟨34, _⟩ => ⟨S600000x1, .i32⟩
  | .hbm, ⟨35, _⟩ => ⟨S600000x128, .f32⟩
  | .hbm, ⟨36, _⟩ => ⟨S_, .f32⟩
  | .hbm, ⟨37, _⟩ => ⟨S100000x128, .f32⟩
  | .hbm, ⟨38, _⟩ => ⟨S600000x1, .i32⟩
  | .hbm, ⟨39, _⟩ => ⟨S100000x128, .f32⟩
  | .hbm, ⟨40, _⟩ => ⟨S100000x1, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S_, .i32⟩
  | .hbm, ⟨46, _⟩ => ⟨S600000, .i32⟩
  | .hbm, ⟨47, _⟩ => ⟨S600000, .i1⟩
  | .hbm, ⟨48, _⟩ => ⟨S_, .i32⟩
  | .hbm, ⟨49, _⟩ => ⟨S600000, .i32⟩
  | .hbm, ⟨50, _⟩ => ⟨S600000, .i32⟩
  | .hbm, ⟨51, _⟩ => ⟨S600000, .i32⟩
  | .hbm, ⟨52, _⟩ => ⟨S600000x1, .i32⟩
  | .hbm, ⟨53, _⟩ => ⟨S600000x128, .f32⟩
  | .hbm, ⟨54, _⟩ => ⟨S_, .f32⟩
  | .hbm, ⟨55, _⟩ => ⟨S100000x128, .f32⟩
  | .hbm, ⟨56, _⟩ => ⟨S600000x1, .i32⟩
  | .hbm, ⟨57, _⟩ => ⟨S100000x128, .f32⟩
  | .hbm, ⟨58, _⟩ => ⟨S100000x1, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S1x200000, .i32⟩
  | .hbm, ⟨64, _⟩ => ⟨S200000, .i32⟩
  | .hbm, ⟨65, _⟩ => ⟨S1x200000, .i32⟩
  | .hbm, ⟨66, _⟩ => ⟨S200000, .i32⟩
  | .hbm, ⟨67, _⟩ => ⟨S_, .i32⟩
  | .hbm, ⟨68, _⟩ => ⟨S200000, .i32⟩
  | .hbm, ⟨69, _⟩ => ⟨S200000, .i1⟩
  | .hbm, ⟨70, _⟩ => ⟨S_, .i32⟩
  | .hbm, ⟨71, _⟩ => ⟨S200000, .i32⟩
  | .hbm, ⟨72, _⟩ => ⟨S200000, .i32⟩
  | .hbm, ⟨73, _⟩ => ⟨S200000, .i32⟩
  | .hbm, ⟨74, _⟩ => ⟨S200000x1, .i32⟩
  | .hbm, ⟨75, _⟩ => ⟨S200000x128, .f32⟩
  | .hbm, ⟨76, _⟩ => ⟨S_, .i32⟩
  | .hbm, ⟨77, _⟩ => ⟨S200000, .i32⟩
  | .hbm, ⟨78, _⟩ => ⟨S200000, .i1⟩
  | .hbm, ⟨79, _⟩ => ⟨S_, .i32⟩
  | .hbm, ⟨80, _⟩ => ⟨S200000, .i32⟩
  | .hbm, ⟨81, _⟩ => ⟨S200000, .i32⟩
  | .hbm, ⟨82, _⟩ => ⟨S200000, .i32⟩
  | .hbm, ⟨83, _⟩ => ⟨S200000x1, .i32⟩
  | .hbm, ⟨84, _⟩ => ⟨S200000x128, .f32⟩
  | .hbm, ⟨85, _⟩ => ⟨S128x1, .f32⟩
  | .hbm, ⟨86, _⟩ => ⟨S128x1, .f32⟩
  | .hbm, ⟨87, _⟩ => ⟨S1x1, .f32⟩
  | .hbm, ⟨88, _⟩ => ⟨S200000x1, .f32⟩
  | .hbm, ⟨89, _⟩ => ⟨S200000, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x1, .f32⟩
  | .local _ .vmem, ⟨23, _⟩ => ⟨S128x1, .f32⟩
  | .local _ .vmem, ⟨24, _⟩ => ⟨S1x1, .f32⟩
  | .local _ .vmem, ⟨25, _⟩ => ⟨S10000x1, .f32⟩
  | .local _ .vmem, ⟨26, _⟩ => ⟨S10000x1, .f32⟩
  | _, _ => ⟨S2x600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_8 : Ref sig .tc := ⟨.hbm, 67, rfl⟩
abbrev main_v46 : Ref sig .tc := ⟨.hbm, 68, rfl⟩
abbrev main_v47 : Ref sig .tc := ⟨.hbm, 69, rfl⟩
abbrev main_c_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_c_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  slices_S256x1_S128x1_0_0 : S256x1.Slices ![0, 0] S128x1
  slices_S256x1_S128x1_128_0 : S256x1.Slices ![128, 0] S128x1
  shapeCasts_S1_S1x1 : S1.ShapeCasts S1x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S200000x1_S200000 : S200000x1.ShapeCasts S200000
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  gather_S100000x128_S200000x1_S200000x128_1_0_n_n_0_1_1128_wf : GatherDims.WF S100000x128 S200000x1 S200000x128 [1] [0] [] [0] [] 1 ![1, 128]
  dot_S10000x128_S128x1_S10000x1_1_0_0_1_n_n_wf : DotDims.WF S10000x128 S128x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S200000x128.size a
  hwx2_0 : ∀ i : grid2.Coords, EltTy.bits .f32 = 32 ∨ (Rect.block (s := S200000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S200000x128.size a
  hwx2_1 : ∀ i : grid2.Coords, EltTy.bits .f32 = 32 ∨ (Rect.block (s := S200000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x1.size a ≤ S128x1.size a
  hwx2_2 : ∀ i : grid2.Coords, EltTy.bits .f32 = 32 ∨ (Rect.block (s := S128x1) S128x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x1.size a ≤ S128x1.size a
  hwx2_3 : ∀ i : grid2.Coords, EltTy.bits .f32 = 32 ∨ (Rect.block (s := S128x1) S128x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x1.size a ≤ S200000x1.size a
  hwx2_5 : ∀ i : grid2.Coords, EltTy.bits .f32 = 32 ∨ (Rect.block (s := S200000x1) S10000x1.size (cc2_transform_5 i) (hinb2_5 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v60) S128x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S128x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v63) S10000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S2x600000 : Shape := ⟨2, ![2, 600000]⟩
abbrev S2x200000 : Shape := ⟨2, ![2, 200000]⟩
abbrev S100000x128 : Shape := ⟨2, ![100000, 128]⟩
abbrev S128x128 : Shape := ⟨2, ![128, 128]⟩
abbrev S128 : Shape := ⟨1, ![128]⟩
abbrev S256x1 : Shape := ⟨2, ![256, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S1x128 : Shape := ⟨2, ![1, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩
abbrev S200000x256 : Shape := ⟨2, ![200000, 256]⟩
abbrev S1x1 : Shape := ⟨2, ![1, 1]⟩

abbrev nBuf : Space → Nat
  | .hbm => 108
  | .vmem => 0
  | .smem => 0
  | _ => 0

abbrev bufTy : (tb : Table) → Fin (tcTables nBuf tb) → BufTy
  | .hbm, ⟨0, _⟩ => ⟨S2x600000, .i32⟩
  | .hbm, ⟨1, _⟩ => ⟨S2x200000, .i32⟩
  | .hbm, ⟨2, _⟩ => ⟨S100000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S256x1, .f32⟩
  | .hbm, ⟨10, _⟩ => ⟨S1, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S_, .f32⟩
  | .hbm, ⟨25, _⟩ => ⟨S100000x128, .f32⟩
  | .hbm, ⟨26, _⟩ => ⟨S600000x1, .i32⟩
  | .hbm, ⟨27, _⟩ => ⟨S100000x128, .f32⟩
  | .hbm, ⟨28, _⟩ => ⟨S_, .f32⟩
  | .hbm, ⟨29, _⟩ => ⟨S600000, .f32⟩
  | .hbm, ⟨30, _⟩ => ⟨S_, .f32⟩
  | .hbm, ⟨31, _⟩ => ⟨S100000, .f32⟩
  | .hbm, ⟨32, _⟩ => ⟨S600000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S600000, .i32⟩
  | .hbm, ⟨51, _⟩ => ⟨S600000, .i1⟩
  | .hbm, ⟨52, _⟩ => ⟨S_, .i32⟩
  | .hbm, ⟨53, _⟩ => ⟨S600000, .i32⟩
  | .hbm, ⟨54, _⟩ => ⟨S600000, .i32⟩
  | .hbm, ⟨55, _⟩ => ⟨S600000, .i32⟩
  | .hbm, ⟨56, _⟩ => ⟨S600000x1, .i32⟩
  | .hbm, ⟨57, _⟩ => ⟨S600000x128, .f32⟩
  | .hbm, ⟨58, _⟩ => ⟨S_, .f32⟩
  | .hbm, ⟨59, _⟩ => ⟨S100000x128, .f32⟩
  | .hbm, ⟨60, _⟩ => ⟨S600000x1, .i32⟩
  | .hbm, ⟨61, _⟩ => ⟨S100000x128, .f32⟩
  | .hbm, ⟨62, _⟩ => ⟨S_, .f32⟩
  | .hbm, ⟨63, _⟩ => ⟨S600000, .f32⟩
  | .hbm, ⟨64, _⟩ => ⟨S_, .f32⟩
  | .hbm, ⟨65, _⟩ => ⟨S100000, .f32⟩
  | .hbm, ⟨66, _⟩ => ⟨S600000x1, .i32⟩
  | .hbm, ⟨67, _⟩ => ⟨S100000, .f32⟩
  | .hbm, ⟨68, _⟩ => ⟨S_, .f32⟩
  | .hbm, ⟨69, _⟩ => ⟨S100000, .f32⟩
  | .hbm, ⟨70, _⟩ => ⟨S100000, .f32⟩
  | .hbm, ⟨71, _⟩ => ⟨S100000x1, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S1x200000, .i32⟩
  | .hbm, ⟨81, _⟩ => ⟨S200000, .i32⟩
  | .hbm, ⟨82, _⟩ => ⟨S1x200000, .i32⟩
  | .hbm, ⟨83, _⟩ => ⟨S200000, .i32⟩
  | .hbm, ⟨84, _⟩ => ⟨S_, .i32⟩
  | .hbm, ⟨85, _⟩ => ⟨S200000, .i32⟩
  | .hbm, ⟨86, _⟩ => ⟨S200000, .i1⟩
  | .hbm, ⟨87, _⟩ => ⟨S_, .i32⟩
  | .hbm, ⟨88, _⟩ => ⟨S200000, .i32⟩
  | .hbm, ⟨89, _⟩ => ⟨S200000, .i32⟩
  | .hbm, ⟨90, _⟩ => ⟨S200000, .i32⟩
  | .hbm, ⟨91, _⟩ => ⟨S200000x1, .i32⟩
  | .hbm, ⟨92, _⟩ => ⟨S200000x128, .f32⟩
  | .hbm, ⟨93, _⟩ => ⟨S_, .i32⟩
  | .hbm, ⟨94, _⟩ => ⟨S200000, .i32⟩
  | .hbm, ⟨95, _⟩ => ⟨S200000, .i1⟩
  | .hbm, ⟨96, _⟩ => ⟨S_, .i32⟩
  | .hbm, ⟨97, _⟩ => ⟨S200000, .i32⟩
  | .hbm, ⟨98, _⟩ => ⟨S200000, .i32⟩
  | .hbm, ⟨99, _⟩ => ⟨S200000, .i32⟩
  | .hbm, ⟨100, _⟩ => ⟨S200000x1, .i32⟩
  | .hbm, ⟨101, _⟩ => ⟨S200000x128, .f32⟩
  | .hbm, ⟨102, _⟩ => ⟨S200000x256, .f32⟩
  | .hbm, ⟨103, _⟩ => ⟨S200000x1, .f32⟩
  | .hbm, ⟨104, _⟩ => ⟨S1x1, .f32⟩
  | .hbm, ⟨105, _⟩ => ⟨S200000x1, .f32⟩
  | .hbm, ⟨106, _⟩ => ⟨S200000x1, .f32⟩
  | .hbm, ⟨107, _⟩ => ⟨S200000, .f32⟩
  | _, _ => ⟨S2x600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_10 : Ref sig .tc := ⟨.hbm, 84, rfl⟩
abbrev main_v59 : Ref sig .tc := ⟨.hbm, 85, rfl⟩
abbrev main_v60 : Ref sig .tc := ⟨.hbm, 86, rfl⟩
abbrev main_c_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_12 : Ref sig .tc := ⟨.hbm, 93, rfl⟩
abbrev main_v66 : Ref sig .tc := ⟨.hbm, 94, rfl⟩
abbrev main_v67 : Ref sig .tc := ⟨.hbm, 95, rfl⟩
abbrev main_c_13 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x128_S200000x256_d1 : Shape.Concatenates [S200000x128, S200000x128] S200000x256 1
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  shapeCasts_S200000x1_S200000 : S200000x1.ShapeCasts S200000
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x128_S100000x128_1_0_0_1_n_n_wf : DotDims.WF S100000x128 S128x128 S100000x128 [1] [0] [0] [1] [] []
  gather_S100000x128_S200000x1_S200000x128_1_0_n_n_0_1_1128_wf : GatherDims.WF S100000x128 S200000x1 S200000x128 [1] [0] [] [0] [] 1 ![1, 128]
  dot_S200000x256_S256x1_S200000x1_1_0_0_1_n_n_wf : DotDims.WF S200000x256 S256x1 S200000x1 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def dot_S200000x256_S256x1_S200000x1_1_0_0_1_n_n : DotDims S200000x256 S256x1 S200000x1 where
  lhsContracting := [1]
  rhsContracting := [0]
  lhsNonContracting := [0]
  rhsNonContracting := [1]
  lhsBatch := []
  rhsBatch := []
  wf := dot_S200000x256_S256x1_S200000x1_1_0_0_1_n_n_wf

class Facts : Prop extends Facts₀ where

variable [Facts]
-- ==== Proof.SageMath.lean ====
/-
  The arithmetic of one mean-aggregation graph layer, stated once over the extended reals and over arrays of any
  number of rows, so that a row block and the whole array are instances of one definition.

  Row `n` of a layer's output is `(Σₖ a[n,k]·wl[k,j] + Σₖ x[n,k]·wr[k,j]) + b[j]`: the aggregated neighbours `a`
  through one weight matrix, the node's own features `x` through another, and a bias row. Each entry depends on row
  `n` of `a` and `x` only, which is why cutting the rows into blocks and computing block by block gives the same array.
  The final scorer is the same shape with one output column.

  Two laws of the extended reals are all the algebra the comparison with the reference needs:
  a product with the reciprocal `1 / c` is the quotient by `c` whenever `c ≠ 0` (infinite `c` included: both are the
  product with `c⁻¹`), and a sum of three terms may be regrouped (addition on the extended reals is commutative and
  associative, even where `+∞` meets `-∞`).
-/
import Idealize.ShloMosaic.PureOps.Ideal.Laws
import Idealize.ShloMosaic.Lib.ValueIdx

noncomputable section

namespace Cert.Sage

open Idealize.ShloMosaic Idealize.ShloMosaic.ValueIdx

/-- The row of an index of an `[R, C]` array. -/
abbrev row {R C : Nat} (i : (⟨2, ![R, C]⟩ : Shape).Idx) : Fin R := ⟨(i 0).val, idx2_lt0 i⟩
/-- The column of an index of an `[R, C]` array. -/
abbrev col {R C : Nat} (i : (⟨2, ![R, C]⟩ : Shape).Idx) : Fin C := ⟨(i 1).val, idx2_lt1 i⟩

theorem ix2_row_col {R C : Nat} (i : (⟨2, ![R, C]⟩ : Shape).Idx) : ix2 (row i) (col i) = i := by
  funext a
  match a with
  | ⟨0, _⟩ => rfl
  | ⟨1, _⟩ => rfl

/-- `Σₖ a[n,k] · w[k,j]` at the index `(n, j)`: one row of `a` against one column of `w`. -/
def rowDot {R K C : Nat} (a : (⟨2, ![R, K]⟩ : Shape).Idx → EReal) (w : (⟨2, ![K, C]⟩ : Shape).Idx → EReal) :
    (⟨2, ![R, C]⟩ : Shape).Idx → EReal :=
  fun i => ∑ k : Fin K, a (ix2 (row i) k) * w (ix2 k (col i))

/-- One layer's rows: `(a·wl + x·wr) + b`, the bias a single row laid along every row. -/
def combine {R K C : Nat} (a x : (⟨2, ![R, K]⟩ : Shape).Idx → EReal) (wl wr : (⟨2, ![K, C]⟩ : Shape).Idx → EReal)
    (b : (⟨2, ![1, C]⟩ : Shape).Idx → EReal) : (⟨2, ![R, C]⟩ : Shape).Idx → EReal :=
  fun i => (rowDot a wl i + rowDot x wr i) + b (ix2 0 (col i))

/-- The same followed by the rectifier `max · z` (`z` is the zero the programs spell as a bit pattern). -/
def combineMax {R K C : Nat} (z : EReal) (a x : (⟨2, ![R, K]⟩ : Shape).Idx → EReal) (wl wr : (⟨2, ![K, C]⟩ : Shape).Idx → EReal)
    (b : (⟨2, ![1, C]⟩ : Shape).Idx → EReal) : (⟨2, ![R, C]⟩ : Shape).Idx → EReal :=
  fun i => max (combine a x wl wr b i) z

/-- A block of rows `[off, off + R)` of an `[N, K]` array, as an `[R, K]` array. -/
def rowsFrom {N K : Nat} (R off : Nat) (h : off + R ≤ N) (a : (⟨2, ![N, K]⟩ : Shape).Idx → EReal) :
    (⟨2, ![R, K]⟩ : Shape).Idx → EReal :=
  fun y => a (ix2 ⟨off + (y 0).val, by have := idx2_lt0 y; omega⟩ (col y))

/-- Rows of a product are the product of the rows: `rowDot` of a block of rows of `a` is that block of rows of
    `rowDot a w`. -/
theorem rowDot_rowsFrom {N K C : Nat} (R off : Nat) (h : off + R ≤ N) (a : (⟨2, ![N, K]⟩ : Shape).Idx → EReal)
    (w : (⟨2, ![K, C]⟩ : Shape).Idx → EReal) (j : (⟨2, ![R, C]⟩ : Shape).Idx) :
    rowDot (rowsFrom R off h a) w j = rowDot a w (ix2 ⟨off + (j 0).val, by have := idx2_lt0 j; omega⟩ (col j)) := by
  unfold rowDot rowsFrom
  rfl

/-- The layer of a block of rows is that block of rows of the layer. -/
theorem combine_rowsFrom {N K C : Nat} (R off : Nat) (h : off + R ≤ N) (a x : (⟨2, ![N, K]⟩ : Shape).Idx → EReal)
    (wl wr : (⟨2, ![K, C]⟩ : Shape).Idx → EReal) (b : (⟨2, ![1, C]⟩ : Shape).Idx → EReal) (j : (⟨2, ![R, C]⟩ : Shape).Idx) :
    combine (rowsFrom R off h a) (rowsFrom R off h x) wl wr b j
      = combine a x wl wr b (ix2 ⟨off + (j 0).val, by have := idx2_lt0 j; omega⟩ (col j)) := by
  unfold combine
  rw [rowDot_rowsFrom, rowDot_rowsFrom]
  rfl

/-! ## The two laws -/

/-- A product with the reciprocal of a nonzero `c` is the quotient by `c`, on every extended real. -/
theorem mul_one_div_eq_div (s c : EReal) (hc : c ≠ 0) : s * Ideal.div 1 c = Ideal.div s c := by
  unfold Ideal.div
  rw [if_neg hc, if_neg hc, one_mul]

/-- The larger of anything and a positive number is not zero. -/
theorem max_ne_zero_of_pos (a b : EReal) (hb : 0 < b) : max a b ≠ 0 :=
  ne_of_gt (lt_of_lt_of_le hb (le_max_right a b))

/-- Regrouping a sum of three terms. -/
theorem add_add_swap (p q r : EReal) : (p + q) + r = (p + r) + q := add_right_comm p q r

end Cert.Sage

end
-- ==== Proof.BlockDot.lean ====
/-
  A row block times a weight matrix, entry by entry.

  Inside a kernel a block of rows `l` (its entries narrowed to a shorter float format, which changes nothing over the
  extended reals) is multiplied into a zero accumulator by the matrix unit. Over the extended reals the entry `(p, q)` of
  the result is the plain sum `Σₖ l[p,k] · r[k,q]` over the one contracted axis of extent 128: the accumulator's zero
  is the neutral element, and the contraction index of the printed dimension numbers is its one coordinate `k`, the left
  operand read at `(p, k)` and the right at `(k, q)`. Stated for the two products the kernels make: a 5000-row block
  against a 128 × 128 matrix, and a 10000-row block against a 128 × 1 column.
-/
import proofs.«164227_j8246337208621_1_alg».proof.Proof.Gen.KernelIdeal
import proofs.«164227_j8246337208621_1_alg».proof.Proof.SageMath
import Idealize.ShloMosaic.Lib.ValueIdx
import Idealize.ShloMosaic.PureOps.Ideal.Laws

set_option maxRecDepth 16384

noncomputable section

namespace Cert.KernelIdeal.BlockDot

open Cert.KernelIdeal Cert.Sage Idealize.ShloMosaic Idealize.ShloMosaic.ValueIdx

/-! ## Which coordinates the layer product reads, axis by axis -/

theorem layer_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem layer_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem layer_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem layer_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000-row block against a 128 × 128 matrix: entry `(p, q)` is `Σₖ l[p,k] · r[k,q]`. -/
theorem blockDot (l : FVec Ideal S5000x128 .bf16) (r : FVec Ideal S128x128 .bf16) (j : S5000x128.Idx) :
    matmul dot_S5000x128_S128x128_S5000x128_1_0_0_1_n_n none l r (constant S5000x128 .f32 0x00000000#32) j = rowDot l r j := by
  simp only [matmul]
  rw [Ideal.matmul_constant_zero_apply, ← Equiv.sum_comp (ValueIdx.contrEquiv1 dot_S5000x128_S128x128_S5000x128_1_0_0_1_n_n 128 rfl rfl).symm]
  unfold rowDot
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = ix2 (row j) k := funext fun a => Fin.ext (by
    match a with
    | ⟨0, _⟩ => exact layer_lhs_0 _ _
    | ⟨1, _⟩ => exact (layer_lhs_1 _ _).trans hk)
  have er : dot_S5000x128_S128x128_S5000x128_1_0_0_1_n_n.rhsIdx j ((ValueIdx.contrEquiv1 dot_S5000x128_S128x128_S5000x128_1_0_0_1_n_n 128 rfl rfl).symm k) = ix2 k (col j) := funext fun a => Fin.ext (by
    match a with
    | ⟨0, _⟩ => exact (layer_rhs_0 _ _).trans hk
    | ⟨1, _⟩ => exact layer_rhs_1 _ _)
  rw [el, er]

/-! ## The scorer's product: one output column -/

theorem scorer_lhs_0 (i : S10000x1.Idx) (q : dot_S10000x128_S128x1_S10000x1_1_0_0_1_n_n.contr.Idx) :
    (dot_S10000x128_S128x1_S10000x1_1_0_0_1_n_n.lhsIdx i q 0).val = (i 0).val := by
  unfold DotDims.lhsIdx
  rw [dif_neg (show ¬(0 : Fin S10000x128.rank) ∈ dot_S10000x128_S128x1_S10000x1_1_0_0_1_n_n.lhsBatch by decide), dif_pos (show (0 : Fin S10000x128.rank) ∈ dot_S10000x128_S128x1_S10000x1_1_0_0_1_n_n.lhsNonContracting by decide)]
  rfl
theorem scorer_lhs_1 (i : S10000x1.Idx) (q : dot_S10000x128_S128x1_S10000x1_1_0_0_1_n_n.contr.Idx) :
    (dot_S10000x128_S128x1_S10000x1_1_0_0_1_n_n.lhsIdx i q 1).val = (q ⟨0, by decide⟩).val :=
  dot_S10000x128_S128x1_S10000x1_1_0_0_1_n_n.lhsIdx_val_of_single rfl i q
theorem scorer_rhs_0 (i : S10000x1.Idx) (q : dot_S10000x128_S128x1_S10000x1_1_0_0_1_n_n.contr.Idx) :
    (dot_S10000x128_S128x1_S10000x1_1_0_0_1_n_n.rhsIdx i q 0).val = (q ⟨0, by decide⟩).val :=
  dot_S10000x128_S128x1_S10000x1_1_0_0_1_n_n.rhsIdx_val_of_single rfl i q
theorem scorer_rhs_1 (i : S10000x1.Idx) (q : dot_S10000x128_S128x1_S10000x1_1_0_0_1_n_n.contr.Idx) :
    (dot_S10000x128_S128x1_S10000x1_1_0_0_1_n_n.rhsIdx i q 1).val = (i 1).val := by
  unfold DotDims.rhsIdx
  rw [dif_neg (show ¬(1 : Fin S128x1.rank) ∈ dot_S10000x128_S128x1_S10000x1_1_0_0_1_n_n.rhsBatch by decide), dif_pos (show (1 : Fin S128x1.rank) ∈ dot_S10000x128_S128x1_S10000x1_1_0_0_1_n_n.rhsNonContracting by decide)]
  rfl

/-- A 10000-row block against a 128 × 1 column: entry `(p, 0)` is `Σₖ l[p,k] · r[k,0]`. -/
theorem blockDotCol (l : FVec Ideal S10000x128 .bf16) (r : FVec Ideal S128x1 .bf16) (j : S10000x1.Idx) :
    matmul dot_S10000x128_S128x1_S10000x1_1_0_0_1_n_n none l r (constant S10000x1 .f32 0x00000000#32) j = rowDot l r j := by
  simp only [matmul]
  rw [Ideal.matmul_constant_zero_apply, ← Equiv.sum_comp (ValueIdx.contrEquiv1 dot_S10000x128_S128x1_S10000x1_1_0_0_1_n_n 128 rfl rfl).symm]
  unfold rowDot
  refine Finset.sum_congr rfl fun k _ => ?_
  have hk := ValueIdx.contrEquiv1_symm_val dot_S10000x128_S128x1_S10000x1_1_0_0_1_n_n 128 rfl rfl k
  have el : dot_S10000x128_S128x1_S10000x1_1_0_0_1_n_n.lhsIdx j ((ValueIdx.contrEquiv1 dot_S10000x128_S128x1_S10000x1_1_0_0_1_n_n 128 rfl rfl).symm k) = ix2 (row j) k := funext fun a => Fin.ext (by
    match a with
    | ⟨0, _⟩ => exact scorer_lhs_0 _ _
    | ⟨1, _⟩ => exact (scorer_lhs_1 _ _).trans hk)
  have er : dot_S10000x128_S128x1_S10000x1_1_0_0_1_n_n.rhsIdx j ((ValueIdx.contrEquiv1 dot_S10000x128_S128x1_S10000x1_1_0_0_1_n_n 128 rfl rfl).symm k) = ix2 k (col j) := funext fun a => Fin.ext (by
    match a with
    | ⟨0, _⟩ => exact (scorer_rhs_0 _ _).trans hk
    | ⟨1, _⟩ => exact scorer_rhs_1 _ _)
  rw [el, er]

end Cert.KernelIdeal.BlockDot

end
-- ==== Proof.Layer0.lean ====
/-
  The first graph layer's kernel region, as one function of the arrays it is entered with.

  The region walks 20 grid points; point `t` stages rows `[5000·t, 5000·t + 5000)` of the aggregated-neighbour array
  and of the node features, the two 128 × 128 weight matrices and the bias row whole, and stores into rows
  `[5000·t, 5000·t + 5000)` of the output
      max ((a·wl + x·wr) + b) 0
  computed on the staged rows. Because entry `(n, j)` of that expression reads row `n` of `a` and `x` only, what
  point `t` writes back is exactly rows `[5000·t, 5000·t + 5000)` of the same expression on the WHOLE arrays; the 20
  blocks tile the 100000 rows (row `n` lies in block `n / 5000`), so after the region the output array is that
  expression of the entry arrays, whatever they hold.
-/
import proofs.«164227_j8246337208621_1_alg».proof.Proof.Gen.KernelIdeal.Frame
import proofs.«164227_j8246337208621_1_alg».proof.Proof.SageMath
import proofs.«164227_j8246337208621_1_alg».proof.Proof.BlockDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer0

open Cert.KernelIdeal Cert.KernelIdeal.Gen Cert.KernelIdeal.BlockDot Cert.Sage
open Idealize.ShloMosaic Idealize.ShloMosaic.TcCoe Idealize.SL.Sem Idealize.ShloMosaic.ValueIdx
open Idealize.ShloMosaic.Pipeline (Dat)

/-! ## The body's stored value at an index -/

/-- What the body stores, entry by entry: the two block products summed, the bias row added along every row, and the
    rectifier; narrowing to the shorter float format and the identity shape cast change nothing over the extended reals. -/
theorem stored_apply (x0 x1 : FVec Ideal S5000x128 .f32) (x2 x3 : FVec Ideal S128x128 .f32) (x4 : FVec Ideal S1x128 .f32)
    (j : S5000x128.Idx) :
    k0_pay1 (F := Ideal) x0 x1 x2 x3 x4 j = combineMax (Ideal.ofBits .f32 0x00000000#32) x0 x1 x2 x3 x4 j := by
  unfold k0_pay1
  rw [shapeCast_self, shapeCast_self]
  show max ((matmul dot_S5000x128_S128x128_S5000x128_1_0_0_1_n_n none (truncf .bf16 x0 bitsLt_bf16_f32) (truncf .bf16 x2 bitsLt_bf16_f32) (constant S5000x128 .f32 0x00000000#32) j
      + matmul dot_S5000x128_S128x128_S5000x128_1_0_0_1_n_n none (truncf .bf16 x1 bitsLt_bf16_f32) (truncf .bf16 x3 bitsLt_bf16_f32) (constant S5000x128 .f32 0x00000000#32) j)
      + broadcastTo S5000x128 x4 broadcasts_S1x128_S5000x128 j) (Ideal.ofBits .f32 0x00000000#32) = _
  rw [blockDot, blockDot]
  have hb : broadcastTo S5000x128 x4 broadcasts_S1x128_S5000x128 j = x4 (ix2 (0 : Fin 1) (col j)) := by
    have := broadcastTo_1b_ab_apply x4 broadcasts_S1x128_S5000x128 (row j) (col j)
    rw [ix2_row_col] at this
    exact this
  rw [hb]
  rfl

/-! ## The region, at any entry contents -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the 20 points: the two row-blocked inputs and the output sit at block row `t`, the
    weights and the bias at the one block they have. -/
theorem idx_facts : ∀ t : Fin cfg0.N,
    win0_0.index t (0 : Fin 2) = t.val ∧ win0_0.index t (1 : Fin 2) = 0
  ∧ win0_1.index t (0 : Fin 2) = t.val ∧ win0_1.index t (1 : Fin 2) = 0
  ∧ win0_2.index t (0 : Fin 2) = 0 ∧ win0_2.index t (1 : Fin 2) = 0
  ∧ win0_3.index t (0 : Fin 2) = 0 ∧ win0_3.index t (1 : Fin 2) = 0
  ∧ win0_4.index t (0 : Fin 2) = 0 ∧ win0_4.index t (1 : Fin 2) = 0
  ∧ win0_5.index t (0 : Fin 2) = t.val ∧ win0_5.index t (1 : Fin 2) = 0 :=
  (by decide +kernel : ∀ t : Fin grid0.N, _)

theorem blk_bound (t : Fin cfg0.N) : 5000 * t.val + 5000 ≤ 100000 := by
  have h : t.val < 20 := lt_of_lt_of_eq t.isLt N_0
  omega

/-- The layer's output as a function of the region's entry arrays: `max ((a·wl + x·wr) + b) 0`. -/
def out (c : Dev nD) : FVec Ideal S100000x128 .f32 :=
  combineMax (Ideal.ofBits .f32 0x00000000#32) (V c main_v24 : FVec Ideal S100000x128 .f32) (V c main_arg2 : FVec Ideal S100000x128 .f32)
    (V c main_arg3 : FVec Ideal S128x128 .f32) (V c main_arg5 : FVec Ideal S128x128 .f32) (V c main_v25 : FVec Ideal S1x128 .f32)

/-- The staged block of the aggregated neighbours at point `t` is rows `[5000·t, 5000·t + 5000)` of the array. -/
theorem staged_agg (c : Dev nD) (t : Fin cfg0.N) :
    (iblk0 V c 0 t : FVec Ideal S5000x128 .f32) = rowsFrom 5000 (5000 * t.val) (blk_bound t) (V c main_v24 : FVec Ideal S100000x128 .f32) := by
  obtain ⟨e0, e1, -⟩ := idx_facts t
  funext y
  unfold iblk0 rowsFrom
  rw [View.read_apply]
  show V c main_v24 _ = V c main_v24 _
  congr 1
  funext a
  apply Fin.ext
  match a with
  | ⟨0, _⟩ => show win0_0.index t (0 : Fin 2) * 5000 + 1 * (y 0).val = 5000 * t.val + (y 0).val; rw [e0]; omega
  | ⟨1, _⟩ => show win0_0.index t (1 : Fin 2) * 128 + 1 * (y 1).val = (y 1).val; rw [e1]; omega

/-- Likewise the staged block of the node features. -/
theorem staged_x (c : Dev nD) (t : Fin cfg0.N) :
    (iblk0 V c 1 t : FVec Ideal S5000x128 .f32) = rowsFrom 5000 (5000 * t.val) (blk_bound t) (V c main_arg2 : FVec Ideal S100000x128 .f32) := by
  obtain ⟨-, -, e0, e1, -⟩ := idx_facts t
  funext y
  unfold iblk0 rowsFrom
  rw [View.read_apply]
  show V c main_arg2 _ = V c main_arg2 _
  congr 1
  funext a
  apply Fin.ext
  match a with
  | ⟨0, _⟩ => show win0_1.index t (0 : Fin 2) * 5000 + 1 * (y 0).val = 5000 * t.val + (y 0).val; rw [e0]; omega
  | ⟨1, _⟩ => show win0_1.index t (1 : Fin 2) * 128 + 1 * (y 1).val = (y 1).val; rw [e1]; omega

/-- The weight matrix of the aggregated side is staged whole. -/
theorem staged_wl (c : Dev nD) (t : Fin cfg0.N) : (iblk0 V c 2 t : FVec Ideal S128x128 .f32) = (V c main_arg3 : FVec Ideal S128x128 .f32) := by
  obtain ⟨-, -, -, -, e0, e1, -⟩ := idx_facts t
  funext y
  unfold iblk0
  rw [View.read_apply]
  show V c main_arg3 _ = V c main_arg3 _
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- The weight matrix of the node's own side is staged whole. -/
theorem staged_wr (c : Dev nD) (t : Fin cfg0.N) : (iblk0 V c 3 t : FVec Ideal S128x128 .f32) = (V c main_arg5 : FVec Ideal S128x128 .f32) := by
  obtain ⟨-, -, -, -, -, -, e0, e1, -⟩ := idx_facts t
  funext y
  unfold iblk0
  rw [View.read_apply]
  show V c main_arg5 _ = V c main_arg5 _
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The bias row is staged whole. -/
theorem staged_b (c : Dev nD) (t : Fin cfg0.N) : (iblk0 V c 4 t : FVec Ideal S1x128 .f32) = (V c main_v25 : FVec Ideal S1x128 .f32) := by
  obtain ⟨-, -, -, -, -, -, -, -, e0, e1, -⟩ := idx_facts t
  funext y
  unfold iblk0
  rw [View.read_apply]
  show V c main_v25 _ = V c main_v25 _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- What point `t` writes back is rows `[5000·t, 5000·t + 5000)` of `out`. -/
theorem flushed_eq (c : Dev nD) (t : Fin cfg0.N) :
    (dat0 V c).flushed 5 t = ((cfg0.win 5).blk t).view.read (Elt Ideal) (out V c) := by
  show (cfg0.win 5).cut (grid0.coords t) ((dat0 V c).after 5 t) = _
  rw [after0_5]
  unfold out0_5
  rw [View.canon_unit_zero origin]
  simp only [View.ld_unit_zero (S := S5000x128) origin, View.ld_unit_zero (S := S128x128) origin, View.ld_unit_zero (S := S1x128) origin]
  obtain ⟨-, -, -, -, -, -, -, -, -, -, e0, e1⟩ := idx_facts t
  funext j
  show k0_pay1 (F := Ideal) (iblk0 V c 0 t) (iblk0 V c 1 t) (iblk0 V c 2 t) (iblk0 V c 3 t) (iblk0 V c 4 t) j = out V c (((cfg0.win 5).blk t).view.emb j)
  refine (stored_apply _ _ _ _ _ j).trans ?_
  rw [staged_agg V c t, staged_x V c t, staged_wl V c t, staged_wr V c t, staged_b V c t]
  unfold out combineMax
  rw [combine_rowsFrom]
  congr 2
  funext a
  apply Fin.ext
  match a with
  | ⟨0, _⟩ => show 5000 * t.val + (j 0).val = win0_5.index t (0 : Fin 2) * 5000 + 1 * (j 0).val; rw [e0]; omega
  | ⟨1, _⟩ => show (j 1).val = win0_5.index t (1 : Fin 2) * 128 + 1 * (j 1).val; rw [e1]; omega

/-- An index of the output array is in point `t`'s block iff each coordinate is in the block's range. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- Row `n` lies in the block of point `n / 5000`: the 20 blocks cover the array. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : (i 0).val / 5000 < cfg0.N := by
    have : (i 0).val / 5000 < 20 := by omega
    exact lt_of_lt_of_eq this N_0.symm
  refine ⟨⟨(i 0).val / 5000, hN⟩, flush0_5 _, ?_⟩
  obtain ⟨-, -, -, -, -, -, -, -, -, -, e0, e1⟩ := idx_facts ⟨(i 0).val / 5000, hN⟩
  rw [mem_blk]
  intro a
  match a with
  | ⟨0, _⟩ =>
    show win0_5.index ⟨(i 0).val / 5000, hN⟩ (0 : Fin 2) * 5000 ≤ (i 0).val ∧ (i 0).val < win0_5.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, hN⟩ (1 : Fin 2) * 128 ≤ (i 1).val ∧ (i 1).val < win0_5.index ⟨(i 0).val / 5000, hN⟩ (1 : Fin 2) * 128 + 128
    rw [e1]; omega

/-- After the region the output array holds `out` of the entry arrays. -/
theorem array_eq (c : Dev nD) : (dat0 V c).arrAt 5 cfg0.N = out V c :=
  (dat0 V c).arrAt_eq_of_cover 5 (out V c) (fun t _ => flushed_eq V c t) cover

end Cert.KernelIdeal.Layer0

end
-- ==== Proof.Layer1.lean ====
/-
  The second graph layer's kernel region, as one function of the arrays it is entered with.

  The same walk as the first layer's region — 20 grid points, point `t` staging rows `[5000·t, 5000·t + 5000)` of the
  aggregated-neighbour array and of the node features, two 128 × 128 weight matrices and a bias row whole — storing into
  rows `[5000·t, 5000·t + 5000)` of the output
      (a·wl + x·wr) + b
  with no rectifier after it. Entry `(n, j)` reads row `n` of `a` and `x` only, so what point `t` writes back is rows
  `[5000·t, 5000·t + 5000)` of that expression on the whole arrays, and the 20 blocks tile the 100000 rows.
-/
import proofs.«164227_j8246337208621_1_alg».proof.Proof.Gen.KernelIdeal.Frame
import proofs.«164227_j8246337208621_1_alg».proof.Proof.SageMath
import proofs.«164227_j8246337208621_1_alg».proof.Proof.BlockDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer1

open Cert.KernelIdeal Cert.KernelIdeal.Gen Cert.KernelIdeal.BlockDot Cert.Sage
open Idealize.ShloMosaic Idealize.ShloMosaic.TcCoe Idealize.SL.Sem Idealize.ShloMosaic.ValueIdx
open Idealize.ShloMosaic.Pipeline (Dat)

/-! ## The body's stored value at an index -/

/-- What the body stores, entry by entry: the two block products summed and the bias row added along every row. -/
theorem stored_apply (x0 x1 : FVec Ideal S5000x128 .f32) (x2 x3 : FVec Ideal S128x128 .f32) (x4 : FVec Ideal S1x128 .f32)
    (j : S5000x128.Idx) :
    k1_pay1 (F := Ideal) x0 x1 x2 x3 x4 j = combine x0 x1 x2 x3 x4 j := by
  unfold k1_pay1
  rw [shapeCast_self, shapeCast_self, shapeCast_self]
  show (matmul dot_S5000x128_S128x128_S5000x128_1_0_0_1_n_n none (truncf .bf16 x0 bitsLt_bf16_f32) (truncf .bf16 x2 bitsLt_bf16_f32) (constant S5000x128 .f32 0x00000000#32) j
      + matmul dot_S5000x128_S128x128_S5000x128_1_0_0_1_n_n none (truncf .bf16 x1 bitsLt_bf16_f32) (truncf .bf16 x3 bitsLt_bf16_f32) (constant S5000x128 .f32 0x00000000#32) j)
      + broadcastTo S5000x128 x4 broadcasts_S1x128_S5000x128 j = _
  rw [blockDot, blockDot]
  have hb : broadcastTo S5000x128 x4 broadcasts_S1x128_S5000x128 j = x4 (ix2 (0 : Fin 1) (col j)) := by
    have := broadcastTo_1b_ab_apply x4 broadcasts_S1x128_S5000x128 (row j) (col j)
    rw [ix2_row_col] at this
    exact this
  rw [hb]
  rfl

/-! ## The region, at any entry contents -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the 20 points: the two row-blocked inputs and the output sit at block row `t`, the
    weights and the bias at the one block they have. -/
theorem idx_facts : ∀ t : Fin cfg1.N,
    win1_0.index t (0 : Fin 2) = t.val ∧ win1_0.index t (1 : Fin 2) = 0
  ∧ win1_1.index t (0 : Fin 2) = t.val ∧ win1_1.index t (1 : Fin 2) = 0
  ∧ win1_2.index t (0 : Fin 2) = 0 ∧ win1_2.index t (1 : Fin 2) = 0
  ∧ win1_3.index t (0 : Fin 2) = 0 ∧ win1_3.index t (1 : Fin 2) = 0
  ∧ win1_4.index t (0 : Fin 2) = 0 ∧ win1_4.index t (1 : Fin 2) = 0
  ∧ win1_5.index t (0 : Fin 2) = t.val ∧ win1_5.index t (1 : Fin 2) = 0 :=
  (by decide +kernel : ∀ t : Fin grid1.N, _)

theorem blk_bound (t : Fin cfg1.N) : 5000 * t.val + 5000 ≤ 100000 := by
  have h : t.val < 20 := lt_of_lt_of_eq t.isLt N_1
  omega

/-- The layer's output as a function of the region's entry arrays: `(a·wl + x·wr) + b`. -/
def out (c : Dev nD) : FVec Ideal S100000x128 .f32 :=
  combine (V c main_v39 : FVec Ideal S100000x128 .f32) (V c main_v26 : FVec Ideal S100000x128 .f32)
    (V c main_arg6 : FVec Ideal S128x128 .f32) (V c main_arg8 : FVec Ideal S128x128 .f32) (V c main_v40 : FVec Ideal S1x128 .f32)

/-- The staged block of the aggregated neighbours at point `t` is rows `[5000·t, 5000·t + 5000)` of the array. -/
theorem staged_agg (c : Dev nD) (t : Fin cfg1.N) :
    (iblk1 V c 0 t : FVec Ideal S5000x128 .f32) = rowsFrom 5000 (5000 * t.val) (blk_bound t) (V c main_v39 : FVec Ideal S100000x128 .f32) := by
  obtain ⟨e0, e1, -⟩ := idx_facts t
  funext y
  unfold iblk1 rowsFrom
  rw [View.read_apply]
  show V c main_v39 _ = V c main_v39 _
  congr 1
  funext a
  apply Fin.ext
  match a with
  | ⟨0, _⟩ => show win1_0.index t (0 : Fin 2) * 5000 + 1 * (y 0).val = 5000 * t.val + (y 0).val; rw [e0]; omega
  | ⟨1, _⟩ => show win1_0.index t (1 : Fin 2) * 128 + 1 * (y 1).val = (y 1).val; rw [e1]; omega

/-- Likewise the staged block of the node features (the first layer's output). -/
theorem staged_x (c : Dev nD) (t : Fin cfg1.N) :
    (iblk1 V c 1 t : FVec Ideal S5000x128 .f32) = rowsFrom 5000 (5000 * t.val) (blk_bound t) (V c main_v26 : FVec Ideal S100000x128 .f32) := by
  obtain ⟨-, -, e0, e1, -⟩ := idx_facts t
  funext y
  unfold iblk1 rowsFrom
  rw [View.read_apply]
  show V c main_v26 _ = V c main_v26 _
  congr 1
  funext a
  apply Fin.ext
  match a with
  | ⟨0, _⟩ => show win1_1.index t (0 : Fin 2) * 5000 + 1 * (y 0).val = 5000 * t.val + (y 0).val; rw [e0]; omega
  | ⟨1, _⟩ => show win1_1.index t (1 : Fin 2) * 128 + 1 * (y 1).val = (y 1).val; rw [e1]; omega

/-- The weight matrix of the aggregated side is staged whole. -/
theorem staged_wl (c : Dev nD) (t : Fin cfg1.N) : (iblk1 V c 2 t : FVec Ideal S128x128 .f32) = (V c main_arg6 : FVec Ideal S128x128 .f32) := by
  obtain ⟨-, -, -, -, e0, e1, -⟩ := idx_facts t
  funext y
  unfold iblk1
  rw [View.read_apply]
  show V c main_arg6 _ = V c main_arg6 _
  congr 1
  funext a
  apply Fin.ext
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- The weight matrix of the node's own side is staged whole. -/
theorem staged_wr (c : Dev nD) (t : Fin cfg1.N) : (iblk1 V c 3 t : FVec Ideal S128x128 .f32) = (V c main_arg8 : FVec Ideal S128x128 .f32) := by
  obtain ⟨-, -, -, -, -, -, e0, e1, -⟩ := idx_facts t
  funext y
  unfold iblk1
  rw [View.read_apply]
  show V c main_arg8 _ = V c main_arg8 _
  congr 1
  funext a
  apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- The bias row is staged whole. -/
theorem staged_b (c : Dev nD) (t : Fin cfg1.N) : (iblk1 V c 4 t : FVec Ideal S1x128 .f32) = (V c main_v40 : FVec Ideal S1x128 .f32) := by
  obtain ⟨-, -, -, -, -, -, -, -, e0, e1, -⟩ := idx_facts t
  funext y
  unfold iblk1
  rw [View.read_apply]
  show V c main_v40 _ = V c main_v40 _
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- What point `t` writes back is rows `[5000·t, 5000·t + 5000)` of `out`. -/
theorem flushed_eq (c : Dev nD) (t : Fin cfg1.N) :
    (dat1 V c).flushed 5 t = ((cfg1.win 5).blk t).view.read (Elt Ideal) (out V c) := by
  show (cfg1.win 5).cut (grid1.coords t) ((dat1 V c).after 5 t) = _
  rw [after1_5]
  unfold out1_5
  rw [View.canon_unit_zero origin]
  simp only [View.ld_unit_zero (S := S5000x128) origin, View.ld_unit_zero (S := S128x128) origin, View.ld_unit_zero (S := S1x128) origin]
  obtain ⟨-, -, -, -, -, -, -, -, -, -, e0, e1⟩ := idx_facts t
  funext j
  show k1_pay1 (F := Ideal) (iblk1 V c 0 t) (iblk1 V c 1 t) (iblk1 V c 2 t) (iblk1 V c 3 t) (iblk1 V c 4 t) j = out V c (((cfg1.win 5).blk t).view.emb j)
  refine (stored_apply _ _ _ _ _ j).trans ?_
  rw [staged_agg V c t, staged_x V c t, staged_wl V c t, staged_wr V c t, staged_b V c t]
  unfold out
  rw [combine_rowsFrom]
  congr 2
  funext a
  apply Fin.ext
  match a with
  | ⟨0, _⟩ => show 5000 * t.val + (j 0).val = win1_5.index t (0 : Fin 2) * 5000 + 1 * (j 0).val; rw [e0]; omega
  | ⟨1, _⟩ => show (j 1).val = win1_5.index t (1 : Fin 2) * 128 + 1 * (j 1).val; rw [e1]; omega

/-- An index of the output array is in point `t`'s block iff each coordinate is in the block's range. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v41).slice (win1_5.rect t)).set ↔ _
  rw [View.set_slice_whole, Rect.mem_set_unit]
  exact Iff.rfl

/-- Row `n` lies in the block of point `n / 5000`: the 20 blocks cover the array. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : (i 0).val / 5000 < cfg1.N := by
    have : (i 0).val / 5000 < 20 := by omega
    exact lt_of_lt_of_eq this N_1.symm
  refine ⟨⟨(i 0).val / 5000, hN⟩, flush1_5 _, ?_⟩
  obtain ⟨-, -, -, -, -, -, -, -, -, -, e0, e1⟩ := idx_facts ⟨(i 0).val / 5000, hN⟩
  rw [mem_blk]
  intro a
  match a with
  | ⟨0, _⟩ =>
    show win1_5.index ⟨(i 0).val / 5000, hN⟩ (0 : Fin 2) * 5000 ≤ (i 0).val ∧ (i 0).val < win1_5.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, hN⟩ (1 : Fin 2) * 128 ≤ (i 1).val ∧ (i 1).val < win1_5.index ⟨(i 0).val / 5000, hN⟩ (1 : Fin 2) * 128 + 128
    rw [e1]; omega

/-- After the region the output array holds `out` of the entry arrays. -/
theorem array_eq (c : Dev nD) : (dat1 V c).arrAt 5 cfg1.N = out V c :=
  (dat1 V c).arrAt_eq_of_cover 5 (out V c) (fun t _ => flushed_eq V c t) cover

end Cert.KernelIdeal.Layer1

end
-- ==== Proof.Scorer.lean ====
/-
  The link scorer's kernel region, as one function of the arrays it is entered with.

  Each of the 200000 candidate links has the feature rows of its two end nodes; the score is
      (xs·wl + xd·wr) + b
  with `wl`, `wr` two 128 × 1 columns and `b` a single number. The region walks 20 grid points; point `t` stages rows
  `[10000·t, 10000·t + 10000)` of the two feature arrays, the two columns and the number whole, and stores rows
  `[10000·t, 10000·t + 10000)` of the score column. Entry `(n, 0)` reads row `n` of `xs` and `xd` only, so each point
  writes back its rows of the expression on the whole arrays, and the 20 blocks tile the 200000 rows.
-/
import proofs.«164227_j8246337208621_1_alg».proof.Proof.Gen.KernelIdeal.Frame
import proofs.«164227_j8246337208621_1_alg».proof.Proof.SageMath
import proofs.«164227_j8246337208621_1_alg».proof.Proof.BlockDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Scorer

open Cert.KernelIdeal Cert.KernelIdeal.Gen Cert.KernelIdeal.BlockDot Cert.Sage
open Idealize.ShloMosaic Idealize.ShloMosaic.TcCoe Idealize.SL.Sem Idealize.ShloMosaic.ValueIdx
open Idealize.ShloMosaic.Pipeline (Dat)

/-! ## The body's stored value at an index -/

/-- What the body stores, entry by entry: the two block-by-column products summed and the one bias number added. -/
theorem stored_apply (x0 x1 : FVec Ideal S10000x128 .f32) (x2 x3 : FVec Ideal S128x1 .f32) (x4 : FVec Ideal S1x1 .f32)
    (j : S10000x1.Idx) :
    k2_pay1 (F := Ideal) x0 x1 x2 x3 x4 j = combine x0 x1 x2 x3 x4 j := by
  unfold k2_pay1
  rw [shapeCast_self, shapeCast_self, shapeCast_self, shapeCast_self, shapeCast_self]
  show (matmul dot_S10000x128_S128x1_S10000x1_1_0_0_1_n_n none (truncf .bf16 x0 bitsLt_bf16_f32) (truncf .bf16 x2 bitsLt_bf16_f32) (constant S10000x1 .f32 0x00000000#32) j
      + matmul dot_S10000x128_S128x1_S10000x1_1_0_0_1_n_n none (truncf .bf16 x1 bitsLt_bf16_f32) (truncf .bf16 x3 bitsLt_bf16_f32) (constant S10000x1 .f32 0x00000000#32) j)
      + broadcastTo S10000x1 x4 broadcasts_S1x1_S10000x1 j = _
  rw [blockDotCol, blockDotCol]
  have hb : broadcastTo S10000x1 x4 broadcasts_S1x1_S10000x1 j = x4 (ix2 (0 : Fin 1) (col j)) := by
    have := broadcastTo_1b_ab_apply x4 broadcasts_S1x1_S10000x1 (row j) (col j)
    rw [ix2_row_col] at this
    exact this
  rw [hb]
  rfl

/-! ## The region, at any entry contents -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the 20 points: the two row-blocked inputs and the output sit at block row `t`, the
    columns and the bias at the one block they have. -/
theorem idx_facts : ∀ t : Fin cfg2.N,
    win2_0.index t (0 : Fin 2) = t.val ∧ win2_0.index t (1 : Fin 2) = 0
  ∧ win2_1.index t (0 : Fin 2) = t.val ∧ win2_1.index t (1 : Fin 2) = 0
  ∧ win2_2.index t (0 : Fin 2) = 0 ∧ win2_2.index t (1 : Fin 2) = 0
  ∧ win2_3.index t (0 : Fin 2) = 0 ∧ win2_3.index t (1 : Fin 2) = 0
  ∧ win2_4.index t (0 : Fin 2) = 0 ∧ win2_4.index t (1 : Fin 2) = 0
  ∧ win2_5.index t (0 : Fin 2) = t.val ∧ win2_5.index t (1 : Fin 2) = 0 :=
  (by decide +kernel : ∀ t : Fin grid2.N, _)

theorem blk_bound (t : Fin cfg2.N) : 10000 * t.val + 10000 ≤ 200000 := by
  have h : t.val < 20 := lt_of_lt_of_eq t.isLt N_2
  omega

/-- The score column as a function of the region's entry arrays: `(xs·wl + xd·wr) + b`. -/
def out (c : Dev nD) : FVec Ideal S200000x1 .f32 :=
  combine (V c main_v52 : FVec Ideal S200000x128 .f32) (V c main_v59 : FVec Ideal S200000x128 .f32)
    (V c main_v60 : FVec Ideal S128x1 .f32) (V c main_v61 : FVec Ideal S128x1 .f32) (V c main_v62 : FVec Ideal S1x1 .f32)

/-- The staged block of the source-end features at point `t` is rows `[10000·t, 10000·t + 10000)` of the array. -/
theorem staged_xs (c : Dev nD) (t : Fin cfg2.N) :
    (iblk2 V c 0 t : FVec Ideal S10000x128 .f32) = rowsFrom 10000 (10000 * t.val) (blk_bound t) (V c main_v52 : FVec Ideal S200000x128 .f32) := by
  obtain ⟨e0, e1, -⟩ := idx_facts t
  funext y
  unfold iblk2 rowsFrom
  rw [View.read_apply]
  show V c main_v52 _ = V c main_v52 _
  congr 1
  funext a
  apply Fin.ext
  match a with
  | ⟨0, _⟩ => show win2_0.index t (0 : Fin 2) * 10000 + 1 * (y 0).val = 10000 * t.val + (y 0).val; rw [e0]; omega
  | ⟨1, _⟩ => show win2_0.index t (1 : Fin 2) * 128 + 1 * (y 1).val = (y 1).val; rw [e1]; omega

/-- Likewise the staged block of the destination-end features. -/
theorem staged_xd (c : Dev nD) (t : Fin cfg2.N) :
    (iblk2 V c 1 t : FVec Ideal S10000x128 .f32) = rowsFrom 10000 (10000 * t.val) (blk_bound t) (V c main_v59 : FVec Ideal S200000x128 .f32) := by
  obtain ⟨-, -, e0, e1, -⟩ := idx_facts t
  funext y
  unfold iblk2 rowsFrom
  rw [View.read_apply]
  show V c main_v59 _ = V c main_v59 _
  congr 1
  funext a
  apply Fin.ext
  match a with
  | ⟨0, _⟩ => show win2_1.index t (0 : Fin 2) * 10000 + 1 * (y 0).val = 10000 * t.val + (y 0).val; rw [e0]; omega
  | ⟨1, _⟩ => show win2_1.index t (1 : Fin 2) * 128 + 1 * (y 1).val = (y 1).val; rw [e1]; omega

/-- The source-end column is staged whole. -/
theorem staged_wl (c : Dev nD) (t : Fin cfg2.N) : (iblk2 V c 2 t : FVec Ideal S128x1 .f32) = (V c main_v60 : FVec Ideal S128x1 .f32) := by
  obtain ⟨-, -, -, -, e0, e1, -⟩ := idx_facts t
  funext y
  unfold iblk2
  rw [View.read_apply]
  show V c main_v60 _ = V c main_v60 _
  congr 1
  funext a
  apply Fin.ext
  match a with
  | ⟨0, _⟩ => show win2_2.index t (0 : Fin 2) * 128 + 1 * (y 0).val = (y 0).val; rw [e0]; omega
  | ⟨1, _⟩ => show win2_2.index t (1 : Fin 2) * 1 + 1 * (y 1).val = (y 1).val; rw [e1]; omega

/-- The destination-end column is staged whole. -/
theorem staged_wr (c : Dev nD) (t : Fin cfg2.N) : (iblk2 V c 3 t : FVec Ideal S128x1 .f32) = (V c main_v61 : FVec Ideal S128x1 .f32) := by
  obtain ⟨-, -, -, -, -, -, e0, e1, -⟩ := idx_facts t
  funext y
  unfold iblk2
  rw [View.read_apply]
  show V c main_v61 _ = V c main_v61 _
  congr 1
  funext a
  apply Fin.ext
  match a with
  | ⟨0, _⟩ => show win2_3.index t (0 : Fin 2) * 128 + 1 * (y 0).val = (y 0).val; rw [e0]; omega
  | ⟨1, _⟩ => show win2_3.index t (1 : Fin 2) * 1 + 1 * (y 1).val = (y 1).val; rw [e1]; omega

/-- The bias number is staged whole. -/
theorem staged_b (c : Dev nD) (t : Fin cfg2.N) : (iblk2 V c 4 t : FVec Ideal S1x1 .f32) = (V c main_v62 : FVec Ideal S1x1 .f32) := by
  obtain ⟨-, -, -, -, -, -, -, -, e0, e1, -⟩ := idx_facts t
  funext y
  unfold iblk2
  rw [View.read_apply]
  show V c main_v62 _ = V c main_v62 _
  congr 1
  funext a
  apply Fin.ext
  match a with
  | ⟨0, _⟩ => show win2_4.index t (0 : Fin 2) * 1 + 1 * (y 0).val = (y 0).val; rw [e0]; omega
  | ⟨1, _⟩ => show win2_4.index t (1 : Fin 2) * 1 + 1 * (y 1).val = (y 1).val; rw [e1]; omega

/-- What point `t` writes back is rows `[10000·t, 10000·t + 10000)` of `out`. -/
theorem flushed_eq (c : Dev nD) (t : Fin cfg2.N) :
    (dat2 V c).flushed 5 t = ((cfg2.win 5).blk t).view.read (Elt Ideal) (out V c) := by
  show (cfg2.win 5).cut (grid2.coords t) ((dat2 V c).after 5 t) = _
  rw [after2_5]
  unfold out2_5
  rw [View.canon_unit_zero origin]
  simp only [View.ld_unit_zero (S := S10000x128) origin, View.ld_unit_zero (S := S128x1) origin, View.ld_unit_zero (S := S1x1) origin]
  obtain ⟨-, -, -, -, -, -, -, -, -, -, e0, e1⟩ := idx_facts t
  funext j
  show k2_pay1 (F := Ideal) (iblk2 V c 0 t) (iblk2 V c 1 t) (iblk2 V c 2 t) (iblk2 V c 3 t) (iblk2 V c 4 t) j = out V c (((cfg2.win 5).blk t).view.emb j)
  refine (stored_apply _ _ _ _ _ j).trans ?_
  rw [staged_xs V c t, staged_xd V c t, staged_wl V c t, staged_wr V c t, staged_b V c t]
  unfold out
  rw [combine_rowsFrom]
  congr 2
  funext a
  apply Fin.ext
  match a with
  | ⟨0, _⟩ => show 10000 * t.val + (j 0).val = win2_5.index t (0 : Fin 2) * 10000 + 1 * (j 0).val; rw [e0]; omega
  | ⟨1, _⟩ => show (j 1).val = win2_5.index t (1 : Fin 2) * 1 + 1 * (j 1).val; rw [e1]; omega

/-- An index of the score column is in point `t`'s block iff each coordinate is in the block's range. -/
theorem mem_blk (t : Fin cfg2.N) (i : S200000x1.Idx) :
    i ∈ ((cfg2.win 5).blk t).view.set ↔ ∀ a : Fin 2, win2_5.index t a * S10000x1.size a ≤ (i a).val ∧ (i a).val < win2_5.index t a * S10000x1.size a + S10000x1.size a := by
  show i ∈ ((View.whole main_v63).slice (win2_5.rect t)).set ↔ _
  rw [View.set_slice_whole, Rect.mem_set_unit]
  exact Iff.rfl

/-- Row `n` lies in the block of point `n / 10000`: the 20 blocks cover the column. -/
theorem cover (i : S200000x1.Idx) : ∃ t : Fin cfg2.N, (cfg2.win 5).flush t = true ∧ i ∈ ((cfg2.win 5).blk t).view.set := by
  have hi0 : (i 0).val < 200000 := (i 0).isLt
  have hi1 : (i 1).val < 1 := (i 1).isLt
  have hN : (i 0).val / 10000 < cfg2.N := by
    have : (i 0).val / 10000 < 20 := by omega
    exact lt_of_lt_of_eq this N_2.symm
  refine ⟨⟨(i 0).val / 10000, hN⟩, flush2_5 _, ?_⟩
  obtain ⟨-, -, -, -, -, -, -, -, -, -, e0, e1⟩ := idx_facts ⟨(i 0).val / 10000, hN⟩
  rw [mem_blk]
  intro a
  match a with
  | ⟨0, _⟩ =>
    show win2_5.index ⟨(i 0).val / 10000, hN⟩ (0 : Fin 2) * 10000 ≤ (i 0).val ∧ (i 0).val < win2_5.index ⟨(i 0).val / 10000, hN⟩ (0 : Fin 2) * 10000 + 10000
    rw [e0]; show (i 0).val / 10000 * 10000 ≤ (i 0).val ∧ (i 0).val < (i 0).val / 10000 * 10000 + 10000; omega
  | ⟨1, _⟩ =>
    show win2_5.index ⟨(i 0).val / 10000, hN⟩ (1 : Fin 2) * 1 ≤ (i 1).val ∧ (i 1).val < win2_5.index ⟨(i 0).val / 10000, hN⟩ (1 : Fin 2) * 1 + 1
    rw [e1]; omega

/-- After the region the score column holds `out` of the entry arrays. -/
theorem array_eq (c : Dev nD) : (dat2 V c).arrAt 5 cfg2.N = out V c :=
  (dat2 V c).arrAt_eq_of_cover 5 (out V c) (fun t _ => flushed_eq V c t) cover

end Cert.KernelIdeal.Scorer

end
-- ==== Proof.HostSide.lean ====
/-
  The kernel program between its three regions: what the host operations compute, and the result buffer as one
  function of the arguments.

  Before the first region the host builds the mean aggregation of the node features: rows gathered at the edge sources
  (a negative index wrapped once), scatter-added at the edge destinations, times `1 / max(count, 1)` of the destination's
  in-degree; the first region turns it and the features into the first layer's output. The second stretch aggregates THAT
  output over the same edges with the same reciprocal counts, and the second region gives the second layer's output. The
  third stretch gathers the rows of the two ends of every candidate link, cuts the 256 × 1 scoring column in two halves,
  and the third region scores; a last reshape flattens the score column.

  Each host stretch is read as its operations' composed term over what the previous boundary holds (a buffer no
  operation of the stretch writes keeps its contents), each region by its closed form, which holds whatever the region
  is entered with; composing the seven steps names the result buffer as `score` of the eleven arguments.
-/
import proofs.«164227_j8246337208621_1_alg».proof.Proof.Gen.KernelIdeal.Frame
import proofs.«164227_j8246337208621_1_alg».proof.Proof.SageMath
import proofs.«164227_j8246337208621_1_alg».proof.Proof.Layer0
import proofs.«164227_j8246337208621_1_alg».proof.Proof.Layer1
import proofs.«164227_j8246337208621_1_alg».proof.Proof.Scorer

set_option maxRecDepth 16384

noncomputable section

namespace Cert.KernelIdeal.HostSide

open Cert.KernelIdeal Cert.KernelIdeal.Gen Cert.Sage
open Idealize.ShloMosaic Idealize.ShloMosaic.TcCoe Idealize.SL.Sem Idealize.ShloMosaic.StableHlo

/-! ## The host operations, named -/

variable {F : FTy → Type} [FloatOps F]

/-- Row 0 of a `[2, 600000]` index table, flat. -/
def srcOf (e : (⟨S2x600000, .i32⟩ : BufTy).Contents (Elt F)) : (⟨S600000, .i32⟩ : BufTy).Contents (Elt F) :=
  shapeCast _ (extractStridedSlice S1x600000 ![0, 0] e slices_S2x600000_S1x600000_0_0) shapeCasts_S1x600000_S600000
/-- Row 1 of a `[2, 600000]` index table, flat. -/
def dstOf (e : (⟨S2x600000, .i32⟩ : BufTy).Contents (Elt F)) : (⟨S600000, .i32⟩ : BufTy).Contents (Elt F) :=
  shapeCast _ (extractStridedSlice S1x600000 ![1, 0] e slices_S2x600000_S1x600000_1_0) shapeCasts_S1x600000_S600000
/-- A flat index vector as a column, a negative index first wrapped once by the number of nodes. -/
def wrapCol (v : (⟨S600000, .i32⟩ : BufTy).Contents (Elt F)) : (⟨S600000x1, .i32⟩ : BufTy).Contents (Elt F) :=
  broadcastInDim S600000x1 ![0] bcast_S600000_S600000x1_0
    (select (cmpi .slt v (broadcastInDim S600000 ![] bcast_S_S600000 (constantI S_ 32 0#32)))
      (addi v (broadcastInDim S600000 ![] bcast_S_S600000 (constantI S_ 32 100000#32))) v)
/-- A flat index vector as a column. -/
def asCol (v : (⟨S600000, .i32⟩ : BufTy).Contents (Elt F)) : (⟨S600000x1, .i32⟩ : BufTy).Contents (Elt F) :=
  broadcastInDim S600000x1 ![0] bcast_S600000_S600000x1_0 v
/-- `1 / max(count, 1)` per node, the count a scatter-add of ones at the destination indices. -/
def invDeg (dst : (⟨S600000, .i32⟩ : BufTy).Contents (Elt F)) : (⟨S100000, .f32⟩ : BufTy).Contents (Elt F) :=
  Host.divf (broadcastInDim S100000 ![] bcast_S_S100000 (constant S_ .f32 0x3F800000#32))
    (maximumf
      (Host.scatterAdd scatter_S100000_S600000x1_S600000_n_0_0_1 (broadcastInDim S100000 ![] bcast_S_S100000 (constant S_ .f32 0x00000000#32))
        (asCol dst) (broadcastInDim S600000 ![] bcast_S_S600000 (constant S_ .f32 0x3F800000#32)))
      (broadcastInDim S100000 ![] bcast_S_S100000 (constant S_ .f32 0x3F800000#32)))
/-- The summed messages: rows of `x` gathered at the sources, scatter-added at the destinations. -/
def msgSum (src dst : (⟨S600000, .i32⟩ : BufTy).Contents (Elt F)) (x : (⟨S100000x128, .f32⟩ : BufTy).Contents (Elt F)) :
    (⟨S100000x128, .f32⟩ : BufTy).Contents (Elt F) :=
  Host.scatterAdd scatter_S100000x128_S600000x1_S600000x128_1_0_0_1 (broadcastInDim S100000x128 ![] bcast_S_S100000x128 (constant S_ .f32 0x00000000#32))
    (asCol dst) (Host.gather gather_S100000x128_S600000x1_S600000x128_1_0_n_n_0_1_1128 x (wrapCol src))
/-- The mean aggregation as the kernel's host side spells it: the summed messages times the reciprocal count, laid along every column. -/
def meanAgg (src dst : (⟨S600000, .i32⟩ : BufTy).Contents (Elt F)) (inv : (⟨S100000, .f32⟩ : BufTy).Contents (Elt F))
    (x : (⟨S100000x128, .f32⟩ : BufTy).Contents (Elt F)) : (⟨S100000x128, .f32⟩ : BufTy).Contents (Elt F) :=
  mulf (msgSum src dst x)
    (broadcastInDim S100000x128 ![0, 1] bcast_S100000x1_S100000x128_0_1 (broadcastInDim S100000x1 ![0] bcast_S100000_S100000x1_0 inv))
/-- A bias vector as a one-row matrix. -/
def biasRow (b : (⟨S128, .f32⟩ : BufTy).Contents (Elt F)) : (⟨S1x128, .f32⟩ : BufTy).Contents (Elt F) :=
  shapeCast _ b shapeCasts_S128_S1x128

/-- Row 0 of a `[2, 200000]` index table, flat. -/
def labSrc (l : (⟨S2x200000, .i32⟩ : BufTy).Contents (Elt F)) : (⟨S200000, .i32⟩ : BufTy).Contents (Elt F) :=
  shapeCast _ (extractStridedSlice S1x200000 ![0, 0] l slices_S2x200000_S1x200000_0_0) shapeCasts_S1x200000_S200000
/-- Row 1 of a `[2, 200000]` index table, flat. -/
def labDst (l : (⟨S2x200000, .i32⟩ : BufTy).Contents (Elt F)) : (⟨S200000, .i32⟩ : BufTy).Contents (Elt F) :=
  shapeCast _ (extractStridedSlice S1x200000 ![1, 0] l slices_S2x200000_S1x200000_1_0) shapeCasts_S1x200000_S200000
/-- The rows of `x` at a flat vector of 200000 node indices, a negative index first wrapped once. -/
def pick (x : (⟨S100000x128, .f32⟩ : BufTy).Contents (Elt F)) (v : (⟨S200000, .i32⟩ : BufTy).Contents (Elt F)) :
    (⟨S200000x128, .f32⟩ : BufTy).Contents (Elt F) :=
  Host.gather gather_S100000x128_S200000x1_S200000x128_1_0_n_n_0_1_1128 x
    (broadcastInDim S200000x1 ![0] bcast_S200000_S200000x1_0
      (select (cmpi .slt v (broadcastInDim S200000 ![] bcast_S_S200000 (constantI S_ 32 0#32)))
        (addi v (broadcastInDim S200000 ![] bcast_S_S200000 (constantI S_ 32 100000#32))) v))
/-- The upper half of the scoring column. -/
def colLo (w : (⟨S256x1, .f32⟩ : BufTy).Contents (Elt F)) : (⟨S128x1, .f32⟩ : BufTy).Contents (Elt F) :=
  extractStridedSlice S128x1 ![0, 0] w slices_S256x1_S128x1_0_0
/-- The lower half of the scoring column. -/
def colHi (w : (⟨S256x1, .f32⟩ : BufTy).Contents (Elt F)) : (⟨S128x1, .f32⟩ : BufTy).Contents (Elt F) :=
  extractStridedSlice S128x1 ![128, 0] w slices_S256x1_S128x1_128_0
/-- The one bias number as a 1 × 1 matrix. -/
def biasOne (b : (⟨S1, .f32⟩ : BufTy).Contents (Elt F)) : (⟨S1x1, .f32⟩ : BufTy).Contents (Elt F) :=
  shapeCast _ b shapeCasts_S1_S1x1
/-- A one-column matrix, flat. -/
def flat (y : (⟨S200000x1, .f32⟩ : BufTy).Contents (Elt F)) : (⟨S200000, .f32⟩ : BufTy).Contents (Elt F) :=
  shapeCast _ y shapeCasts_S200000x1_S200000

/-! ## The program's value, over the extended reals -/

/-- The first layer's output of the arguments. -/
def layer1 (a0 : (⟨S2x600000, .i32⟩ : BufTy).Contents (Elt Ideal)) (a2 : FVec Ideal S100000x128 .f32)
    (a3 : FVec Ideal S128x128 .f32) (a4 : FVec Ideal S128 .f32) (a5 : FVec Ideal S128x128 .f32) : FVec Ideal S100000x128 .f32 :=
  combineMax (Ideal.ofBits .f32 0x00000000#32) (meanAgg (F := Ideal) (srcOf a0) (dstOf a0) (invDeg (dstOf a0)) a2) a2 a3 a5 (biasRow (F := Ideal) a4)

/-- The second layer's output of the first layer's and the arguments. -/
def layer2 (a0 : (⟨S2x600000, .i32⟩ : BufTy).Contents (Elt Ideal)) (x1 : FVec Ideal S100000x128 .f32)
    (a6 : FVec Ideal S128x128 .f32) (a7 : FVec Ideal S128 .f32) (a8 : FVec Ideal S128x128 .f32) : FVec Ideal S100000x128 .f32 :=
  combine (meanAgg (F := Ideal) (srcOf a0) (dstOf a0) (invDeg (dstOf a0)) x1) x1 a6 a8 (biasRow (F := Ideal) a7)

/-- The score column of the second layer's output and the arguments. -/
def scoreCol (a1 : (⟨S2x200000, .i32⟩ : BufTy).Contents (Elt Ideal)) (x2 : FVec Ideal S100000x128 .f32)
    (a9 : FVec Ideal S256x1 .f32) (a10 : FVec Ideal S1 .f32) : FVec Ideal S200000x1 .f32 :=
  combine (pick (F := Ideal) x2 (labSrc a1)) (pick (F := Ideal) x2 (labDst a1)) (colLo (F := Ideal) a9) (colHi (F := Ideal) a9) (biasOne (F := Ideal) a10)

/-! ## The seven steps -/

variable (m : (ℓ : Loc nD τ sig) → Buf (Elt Ideal) ℓ) (ρ : Dev nD → PrngReg)

/-! ### Before the first region -/

theorem s0_agg (c : Dev nD) : W1 m ρ c (Proc.devRef .tc main_v24)
    = meanAgg (srcOf (m ((c : Thread nD τ).loc main_arg0))) (dstOf (m ((c : Thread nD τ).loc main_arg0)))
        (invDeg (dstOf (m ((c : Thread nD τ).loc main_arg0)))) (m ((c : Thread nD τ).loc main_arg2)) := by
  show StableHlo.after hostOps0 (W0 m ρ c) (Proc.devRef .tc main_v24) = _
  dsimp only [hostOps0]
  after_results_simp <;> rfl
theorem s0_bias (c : Dev nD) : W1 m ρ c (Proc.devRef .tc main_v25) = biasRow (m ((c : Thread nD τ).loc main_arg4)) := by
  show StableHlo.after hostOps0 (W0 m ρ c) (Proc.devRef .tc main_v25) = _
  dsimp only [hostOps0]
  after_results_simp <;> rfl
theorem s0_src (c : Dev nD) : W1 m ρ c (Proc.devRef .tc main_v1) = srcOf (m ((c : Thread nD τ).loc main_arg0)) := by
  show StableHlo.after hostOps0 (W0 m ρ c) (Proc.devRef .tc main_v1) = _
  dsimp only [hostOps0]
  after_results_simp <;> rfl
theorem s0_dst (c : Dev nD) : W1 m ρ c (Proc.devRef .tc main_v3) = dstOf (m ((c : Thread nD τ).loc main_arg0)) := by
  show StableHlo.after hostOps0 (W0 m ρ c) (Proc.devRef .tc main_v3) = _
  dsimp only [hostOps0]
  after_results_simp <;> rfl
theorem s0_inv (c : Dev nD) : W1 m ρ c (Proc.devRef .tc main_v11) = invDeg (dstOf (m ((c : Thread nD τ).loc main_arg0))) := by
  show StableHlo.after hostOps0 (W0 m ρ c) (Proc.devRef .tc main_v11) = _
  dsimp only [hostOps0]
  after_results_simp <;> rfl
theorem s0_arg1 (c : Dev nD) : W1 m ρ c (Proc.devRef .tc main_arg1) = m ((c : Thread nD τ).loc main_arg1) := by
  show StableHlo.after hostOps0 (W0 m ρ c) (Proc.devRef .tc main_arg1) = _
  dsimp only [hostOps0]
  after_results_simp <;> rfl
theorem s0_arg2 (c : Dev nD) : W1 m ρ c (Proc.devRef .tc main_arg2) = m ((c : Thread nD τ).loc main_arg2) := by
  show StableHlo.after hostOps0 (W0 m ρ c) (Proc.devRef .tc main_arg2) = _
  dsimp only [hostOps0]
  after_results_simp <;> rfl
theorem s0_arg3 (c : Dev nD) : W1 m ρ c (Proc.devRef .tc main_arg3) = m ((c : Thread nD τ).loc main_arg3) := by
  show StableHlo.after hostOps0 (W0 m ρ c) (Proc.devRef .tc main_arg3) = _
  dsimp only [hostOps0]
  after_results_simp <;> rfl
theorem s0_arg5 (c : Dev nD) : W1 m ρ c (Proc.devRef .tc main_arg5) = m ((c : Thread nD τ).loc main_arg5) := by
  show StableHlo.after hostOps0 (W0 m ρ c) (Proc.devRef .tc main_arg5) = _
  dsimp only [hostOps0]
  after_results_simp <;> rfl
theorem s0_arg6 (c : Dev nD) : W1 m ρ c (Proc.devRef .tc main_arg6) = m ((c : Thread nD τ).loc main_arg6) := by
  show StableHlo.after hostOps0 (W0 m ρ c) (Proc.devRef .tc main_arg6) = _
  dsimp only [hostOps0]
  after_results_simp <;> rfl
theorem s0_arg7 (c : Dev nD) : W1 m ρ c (Proc.devRef .tc main_arg7) = m ((c : Thread nD τ).loc main_arg7) := by
  show StableHlo.after hostOps0 (W0 m ρ c) (Proc.devRef .tc main_arg7) = _
  dsimp only [hostOps0]
  after_results_simp <;> rfl
theorem s0_arg8 (c : Dev nD) : W1 m ρ c (Proc.devRef .tc main_arg8) = m ((c : Thread nD τ).loc main_arg8) := by
  show StableHlo.after hostOps0 (W0 m ρ c) (Proc.devRef .tc main_arg8) = _
  dsimp only [hostOps0]
  after_results_simp <;> rfl
theorem s0_arg9 (c : Dev nD) : W1 m ρ c (Proc.devRef .tc main_arg9) = m ((c : Thread nD τ).loc main_arg9) := by
  show StableHlo.after hostOps0 (W0 m ρ c) (Proc.devRef .tc main_arg9) = _
  dsimp only [hostOps0]
  after_results_simp <;> rfl
theorem s0_arg10 (c : Dev nD) : W1 m ρ c (Proc.devRef .tc main_arg10) = m ((c : Thread nD τ).loc main_arg10) := by
  show StableHlo.after hostOps0 (W0 m ρ c) (Proc.devRef .tc main_arg10) = _
  dsimp only [hostOps0]
  after_results_simp <;> rfl

/-! ### The first region -/

/-- After the first region its output buffer holds the first layer's output of the arguments. -/
theorem x1_at (c : Dev nD) : W2 m ρ c (Proc.devRef .tc main_v26)
    = layer1 (m ((c : Thread nD τ).loc main_arg0)) (m ((c : Thread nD τ).loc main_arg2)) (m ((c : Thread nD τ).loc main_arg3))
        (m ((c : Thread nD τ).loc main_arg4)) (m ((c : Thread nD τ).loc main_arg5)) := by
  refine (W2_arr m ρ c 5).trans ?_
  rw [Layer0.array_eq]
  unfold Layer0.out layer1
  show combineMax _ (W1 m ρ c (Proc.devRef .tc main_v24)) (W1 m ρ c (Proc.devRef .tc main_arg2)) (W1 m ρ c (Proc.devRef .tc main_arg3))
    (W1 m ρ c (Proc.devRef .tc main_arg5)) (W1 m ρ c (Proc.devRef .tc main_v25)) = _
  rw [s0_agg, s0_arg2, s0_arg3, s0_arg5, s0_bias]

/-- Buffers the first region does not write keep what they held. -/
theorem r0_src (c : Dev nD) : W2 m ρ c (Proc.devRef .tc main_v1) = srcOf (m ((c : Thread nD τ).loc main_arg0)) :=
  (W2_of_ne m ρ c main_v1 (by decide)).trans (s0_src m ρ c)
theorem r0_dst (c : Dev nD) : W2 m ρ c (Proc.devRef .tc main_v3) = dstOf (m ((c : Thread nD τ).loc main_arg0)) :=
  (W2_of_ne m ρ c main_v3 (by decide)).trans (s0_dst m ρ c)
theorem r0_inv (c : Dev nD) : W2 m ρ c (Proc.devRef .tc main_v11) = invDeg (dstOf (m ((c : Thread nD τ).loc main_arg0))) :=
  (W2_of_ne m ρ c main_v11 (by decide)).trans (s0_inv m ρ c)
theorem r0_arg1 (c : Dev nD) : W2 m ρ c (Proc.devRef .tc main_arg1) = m ((c : Thread nD τ).loc main_arg1) :=
  (W2_of_ne m ρ c main_arg1 (by decide)).trans (s0_arg1 m ρ c)
theorem r0_arg6 (c : Dev nD) : W2 m ρ c (Proc.devRef .tc main_arg6) = m ((c : Thread nD τ).loc main_arg6) :=
  (W2_of_ne m ρ c main_arg6 (by decide)).trans (s0_arg6 m ρ c)
theorem r0_arg7 (c : Dev nD) : W2 m ρ c (Proc.devRef .tc main_arg7) = m ((c : Thread nD τ).loc main_arg7) :=
  (W2_of_ne m ρ c main_arg7 (by decide)).trans (s0_arg7 m ρ c)
theorem r0_arg8 (c : Dev nD) : W2 m ρ c (Proc.devRef .tc main_arg8) = m ((c : Thread nD τ).loc main_arg8) :=
  (W2_of_ne m ρ c main_arg8 (by decide)).trans (s0_arg8 m ρ c)
theorem r0_arg9 (c : Dev nD) : W2 m ρ c (Proc.devRef .tc main_arg9) = m ((c : Thread nD τ).loc main_arg9) :=
  (W2_of_ne m ρ c main_arg9 (by decide)).trans (s0_arg9 m ρ c)
theorem r0_arg10 (c : Dev nD) : W2 m ρ c (Proc.devRef .tc main_arg10) = m ((c : Thread nD τ).loc main_arg10) :=
  (W2_of_ne m ρ c main_arg10 (by decide)).trans (s0_arg10 m ρ c)

/-! ### Between the first and the second region -/

theorem s1_agg (c : Dev nD) : W3 m ρ c (Proc.devRef .tc main_v39)
    = meanAgg (W2 m ρ c (Proc.devRef .tc main_v1)) (W2 m ρ c (Proc.devRef .tc main_v3)) (W2 m ρ c (Proc.devRef .tc main_v11))
        (W2 m ρ c (Proc.devRef .tc main_v26)) := by
  show StableHlo.after hostOps1 (W2 m ρ c) (Proc.devRef .tc main_v39) = _
  dsimp only [hostOps1]
  after_results_simp <;> rfl
theorem s1_bias (c : Dev nD) : W3 m ρ c (Proc.devRef .tc main_v40) = biasRow (W2 m ρ c (Proc.devRef .tc main_arg7)) := by
  show StableHlo.after hostOps1 (W2 m ρ c) (Proc.devRef .tc main_v40) = _
  dsimp only [hostOps1]
  after_results_simp <;> rfl
theorem s1_x1 (c : Dev nD) : W3 m ρ c (Proc.devRef .tc main_v26) = W2 m ρ c (Proc.devRef .tc main_v26) := by
  show StableHlo.after hostOps1 (W2 m ρ c) (Proc.devRef .tc main_v26) = _
  dsimp only [hostOps1]
  after_results_simp <;> rfl
theorem s1_arg1 (c : Dev nD) : W3 m ρ c (Proc.devRef .tc main_arg1) = W2 m ρ c (Proc.devRef .tc main_arg1) := by
  show StableHlo.after hostOps1 (W2 m ρ c) (Proc.devRef .tc main_arg1) = _
  dsimp only [hostOps1]
  after_results_simp <;> rfl
theorem s1_arg6 (c : Dev nD) : W3 m ρ c (Proc.devRef .tc main_arg6) = W2 m ρ c (Proc.devRef .tc main_arg6) := by
  show StableHlo.after hostOps1 (W2 m ρ c) (Proc.devRef .tc main_arg6) = _
  dsimp only [hostOps1]
  after_results_simp <;> rfl
theorem s1_arg8 (c : Dev nD) : W3 m ρ c (Proc.devRef .tc main_arg8) = W2 m ρ c (Proc.devRef .tc main_arg8) := by
  show StableHlo.after hostOps1 (W2 m ρ c) (Proc.devRef .tc main_arg8) = _
  dsimp only [hostOps1]
  after_results_simp <;> rfl
theorem s1_arg9 (c : Dev nD) : W3 m ρ c (Proc.devRef .tc main_arg9) = W2 m ρ c (Proc.devRef .tc main_arg9) := by
  show StableHlo.after hostOps1 (W2 m ρ c) (Proc.devRef .tc main_arg9) = _
  dsimp only [hostOps1]
  after_results_simp <;> rfl
theorem s1_arg10 (c : Dev nD) : W3 m ρ c (Proc.devRef .tc main_arg10) = W2 m ρ c (Proc.devRef .tc main_arg10) := by
  show StableHlo.after hostOps1 (W2 m ρ c) (Proc.devRef .tc main_arg10) = _
  dsimp only [hostOps1]
  after_results_simp <;> rfl

/-! ### The second region -/

/-- After the second region its output buffer holds the second layer's output. -/
theorem x2_at (c : Dev nD) : W4 m ρ c (Proc.devRef .tc main_v41)
    = layer2 (m ((c : Thread nD τ).loc main_arg0))
        (layer1 (m ((c : Thread nD τ).loc main_arg0)) (m ((c : Thread nD τ).loc main_arg2)) (m ((c : Thread nD τ).loc main_arg3))
          (m ((c : Thread nD τ).loc main_arg4)) (m ((c : Thread nD τ).loc main_arg5)))
        (m ((c : Thread nD τ).loc main_arg6)) (m ((c : Thread nD τ).loc main_arg7)) (m ((c : Thread nD τ).loc main_arg8)) := by
  refine (W4_arr m ρ c 5).trans ?_
  rw [Layer1.array_eq]
  unfold Layer1.out layer2
  show combine (W3 m ρ c (Proc.devRef .tc main_v39)) (W3 m ρ c (Proc.devRef .tc main_v26)) (W3 m ρ c (Proc.devRef .tc main_arg6))
    (W3 m ρ c (Proc.devRef .tc main_arg8)) (W3 m ρ c (Proc.devRef .tc main_v40)) = _
  rw [s1_agg, s1_x1, s1_arg6, s1_arg8, s1_bias, r0_src, r0_dst, r0_inv, x1_at, r0_arg6, r0_arg7, r0_arg8]

theorem r1_arg1 (c : Dev nD) : W4 m ρ c (Proc.devRef .tc main_arg1) = m ((c : Thread nD τ).loc main_arg1) :=
  (W4_of_ne m ρ c main_arg1 (by decide)).trans ((s1_arg1 m ρ c).trans (r0_arg1 m ρ c))
theorem r1_arg9 (c : Dev nD) : W4 m ρ c (Proc.devRef .tc main_arg9) = m ((c : Thread nD τ).loc main_arg9) :=
  (W4_of_ne m ρ c main_arg9 (by decide)).trans ((s1_arg9 m ρ c).trans (r0_arg9 m ρ c))
theorem r1_arg10 (c : Dev nD) : W4 m ρ c (Proc.devRef .tc main_arg10) = m ((c : Thread nD τ).loc main_arg10) :=
  (W4_of_ne m ρ c main_arg10 (by decide)).trans ((s1_arg10 m ρ c).trans (r0_arg10 m ρ c))

/-! ### Between the second and the third region -/

theorem s2_xs (c : Dev nD) : W5 m ρ c (Proc.devRef .tc main_v52)
    = pick (W4 m ρ c (Proc.devRef .tc main_v41)) (labSrc (W4 m ρ c (Proc.devRef .tc main_arg1))) := by
  show StableHlo.after hostOps2 (W4 m ρ c) (Proc.devRef .tc main_v52) = _
  dsimp only [hostOps2]
  after_results_simp <;> rfl
theorem s2_xd (c : Dev nD) : W5 m ρ c (Proc.devRef .tc main_v59)
    = pick (W4 m ρ c (Proc.devRef .tc main_v41)) (labDst (W4 m ρ c (Proc.devRef .tc main_arg1))) := by
  show StableHlo.after hostOps2 (W4 m ρ c) (Proc.devRef .tc main_v59) = _
  dsimp only [hostOps2]
  after_results_simp <;> rfl
theorem s2_lo (c : Dev nD) : W5 m ρ c (Proc.devRef .tc main_v60) = colLo (W4 m ρ c (Proc.devRef .tc main_arg9)) := by
  show StableHlo.after hostOps2 (W4 m ρ c) (Proc.devRef .tc main_v60) = _
  dsimp only [hostOps2]
  after_results_simp <;> rfl
theorem s2_hi (c : Dev nD) : W5 m ρ c (Proc.devRef .tc main_v61) = colHi (W4 m ρ c (Proc.devRef .tc main_arg9)) := by
  show StableHlo.after hostOps2 (W4 m ρ c) (Proc.devRef .tc main_v61) = _
  dsimp only [hostOps2]
  after_results_simp <;> rfl
theorem s2_bias (c : Dev nD) : W5 m ρ c (Proc.devRef .tc main_v62) = biasOne (W4 m ρ c (Proc.devRef .tc main_arg10)) := by
  show StableHlo.after hostOps2 (W4 m ρ c) (Proc.devRef .tc main_v62) = _
  dsimp only [hostOps2]
  after_results_simp <;> rfl

/-! ### The third region and the final reshape -/

/-- The program's result of the arguments: the flattened score column. -/
def score (a0 : (⟨S2x600000, .i32⟩ : BufTy).Contents (Elt Ideal)) (a1 : (⟨S2x200000, .i32⟩ : BufTy).Contents (Elt Ideal))
    (a2 : FVec Ideal S100000x128 .f32) (a3 : FVec Ideal S128x128 .f32) (a4 : FVec Ideal S128 .f32) (a5 a6 : FVec Ideal S128x128 .f32)
    (a7 : FVec Ideal S128 .f32) (a8 : FVec Ideal S128x128 .f32) (a9 : FVec Ideal S256x1 .f32) (a10 : FVec Ideal S1 .f32) :
    FVec Ideal S200000 .f32 :=
  flat (F := Ideal) (scoreCol a1 (layer2 a0 (layer1 a0 a2 a3 a4 a5) a6 a7 a8) a9 a10)

/-- After the third region its output buffer holds the score column. -/
theorem col_at (c : Dev nD) : W6 m ρ c (Proc.devRef .tc main_v63)
    = scoreCol (m ((c : Thread nD τ).loc main_arg1))
        (layer2 (m ((c : Thread nD τ).loc main_arg0))
          (layer1 (m ((c : Thread nD τ).loc main_arg0)) (m ((c : Thread nD τ).loc main_arg2)) (m ((c : Thread nD τ).loc main_arg3))
            (m ((c : Thread nD τ).loc main_arg4)) (m ((c : Thread nD τ).loc main_arg5)))
          (m ((c : Thread nD τ).loc main_arg6)) (m ((c : Thread nD τ).loc main_arg7)) (m ((c : Thread nD τ).loc main_arg8)))
        (m ((c : Thread nD τ).loc main_arg9)) (m ((c : Thread nD τ).loc main_arg10)) := by
  refine (W6_arr m ρ c 5).trans ?_
  rw [Scorer.array_eq]
  unfold Scorer.out scoreCol
  show combine (W5 m ρ c (Proc.devRef .tc main_v52)) (W5 m ρ c (Proc.devRef .tc main_v59)) (W5 m ρ c (Proc.devRef .tc main_v60))
    (W5 m ρ c (Proc.devRef .tc main_v61)) (W5 m ρ c (Proc.devRef .tc main_v62)) = _
  rw [s2_xs, s2_xd, s2_lo, s2_hi, s2_bias, x2_at, r1_arg1, r1_arg9, r1_arg10]

/-- THE RESULT BUFFER at the last boundary is `score` of the arguments. -/
theorem result_at (c : Dev nD) : W7 m ρ c (Proc.devRef .tc main_v64)
    = score (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  have h : W7 m ρ c (Proc.devRef .tc main_v64) = flat (W6 m ρ c (Proc.devRef .tc main_v63)) := by
    show StableHlo.after hostOps3 (W6 m ρ c) (Proc.devRef .tc main_v64) = _
    dsimp only [hostOps3]
    after_results_simp <;> rfl
  rw [h, col_at]
  rfl

end Cert.KernelIdeal.HostSide

end
-- ==== Proof.Bridge.lean ====
/-
  The kernel program's result and the reference's are one function of the eleven arguments, over the extended reals.

  The reference is read one operation at a time (its stages `val_main_vN`); the kernel program's result is `score`, built
  from the same host gathers and scatter-adds and the three regions' closed forms. Where the two spell an index column, a
  zero array or the divisor by the same operations the terms coincide once the stage names are opened. The three places
  where they differ are three laws:

  * THE MEAN. `S · (1 / c)` against `S / c` with `c = max(count, 1)`. The float one denotes the number one, so `c ≥ 1 > 0`
    is not zero, and off zero the quotient is the product with `c⁻¹` on every extended real, infinite ones included.
  * A LAYER. `(A·wl + x·wr) + b` against `(A·wl + b) + x·wr`: addition of extended reals is commutative and associative.
    Each product is a sum over the 128 contracted coordinates, the left factor read at `(n, k)`, the right at `(k, j)`;
    the bias is a vector the reference lays along every row and the kernel holds as a one-row matrix. The first layer
    ends in `max · 0` on both sides, and the reference's second layer is its first layer's expression on the first
    layer's output.
  * THE SCORER. Two 128-term products against the halves of the 256 × 1 column, against one 256-term product of the rows
    joined side by side: a sum over 256 terms is the sum of its halves, the first 128 columns of the joined rows are the
    source end's and the last 128 the destination end's.

  Every change of spelling is made on arbitrary arrays in a small lemma and then used at the programs' arrays as it
  stands, so that no step ever has to evaluate a gather or a scatter-add.
-/
import proofs.«164227_j8246337208621_1_alg».proof.Proof.HostSide
import proofs.«164227_j8246337208621_1_alg».proof.Proof.Gen.ReferenceIdeal.Read
import Idealize.ShloMosaic.Lib.Pipeline.Value
import Idealize.ShloMosaic.Lib.ValueIdx
import Idealize.ShloMosaic.Lib.ValueLayout

set_option maxRecDepth 16384

noncomputable section

namespace Cert.Bridge

open Cert.Sage Cert.KernelIdeal.HostSide Cert.ReferenceIdeal.Read
open Idealize.ShloMosaic Idealize.ShloMosaic.ValueIdx

/-- The bit pattern of the float one denotes the number one. -/
theorem one_eq : Ideal.ofBits .f32 0x3F800000#32 = 1 := by
  simp [Ideal.ofBits, Ideal.ieee, -EReal.coe_mul]; norm_num

/-- The summed messages are spelt by the same operations in both programs. -/
theorem msgSum_eq (a0 : (⟨Cert.KernelIdeal.S2x600000, .i32⟩ : BufTy).Contents (Elt Ideal)) (x : FVec Ideal Cert.KernelIdeal.S100000x128 .f32) :
    msgSum (F := Ideal) (srcOf a0) (dstOf a0) x = val_main_v13 (F := Ideal) a0 x := by
  unfold msgSum asCol wrapCol srcOf dstOf val_main_v13 val_main_v12 val_main_v11 val_main_v10 val_main_v9 val_main_v8 val_main_v7 val_main_v6
    val_main_v5 val_main_v4 val_main_v3 val_main_v2 val_main_v1 val_main_v0 val_main_c val_main_c_0 val_main_cst
  rfl

/-- The kernel's reciprocal count is `1 / c` for the reference's divisor `c = max(count, 1)`, node by node. -/
theorem invDeg_eq (a0 : (⟨Cert.KernelIdeal.S2x600000, .i32⟩ : BufTy).Contents (Elt Ideal)) :
    invDeg (F := Ideal) (dstOf a0) = Host.divf (F := Ideal) (φ := .f32) (val_main_v18 (F := Ideal)) (val_main_v19 (F := Ideal) a0) := by
  unfold invDeg asCol dstOf val_main_v19 val_main_v18 val_main_v17 val_main_v16 val_main_v15 val_main_v14 val_main_v3 val_main_v2
    val_main_cst_1 val_main_cst_2 val_main_cst_3
  rfl

theorem one_at (n : Cert.KernelIdeal.S100000.Idx) : val_main_v18 (F := Ideal) n = 1 := by
  rw [val_main_v18_apply, val_main_cst_3_apply]
  exact one_eq

theorem divisor_ne_zero (a0 : (⟨Cert.KernelIdeal.S2x600000, .i32⟩ : BufTy).Contents (Elt Ideal)) (n : Cert.KernelIdeal.S100000.Idx) :
    val_main_v19 (F := Ideal) a0 n ≠ 0 := by
  rw [val_main_v19_apply]
  show max (val_main_v17 (F := Ideal) a0 n) (val_main_v18 (F := Ideal) n) ≠ 0
  rw [one_at]
  exact max_ne_zero_of_pos _ _ zero_lt_one

/-- A per-node vector laid down a column and then along every column of a 128-wide matrix reads, at `(n, j)`, the vector at `n`. -/
theorem perNode_apply (h1 : Cert.KernelIdeal.S100000.BroadcastsInDim Cert.KernelIdeal.S100000x1 (![0] : Fin 1 → Fin Cert.KernelIdeal.S100000x1.rank))
    (h2 : Cert.KernelIdeal.S100000x1.BroadcastsInDim Cert.KernelIdeal.S100000x128 (![0, 1] : Fin 2 → Fin Cert.KernelIdeal.S100000x128.rank))
    (y : FVec Ideal Cert.KernelIdeal.S100000 .f32) (i : Cert.KernelIdeal.S100000x128.Idx) :
    broadcastInDim Cert.KernelIdeal.S100000x128 ![0, 1] h2 (broadcastInDim Cert.KernelIdeal.S100000x1 ![0] h1 y) i = y (idx_main_v20 (idx_main_v21 i)) := by
  rw [broadcastInDim_apply _ h2 _ i (idx_main_v21 i) (fun a => match a with
      | ⟨0, _⟩ => by show (i 0).val = if (100000 : Nat) = 1 then 0 else (i 0).val; rw [if_neg (by decide)]
      | ⟨1, _⟩ => by show 0 = if (1 : Nat) = 1 then 0 else (i 1).val; rw [if_pos rfl]),
    broadcastInDim_apply _ h1 y (idx_main_v21 i) (idx_main_v20 (idx_main_v21 i)) (fun a => match a with
      | ⟨0, _⟩ => by show ((idx_main_v21 i) 0).val = if (100000 : Nat) = 1 then 0 else ((idx_main_v21 i) 0).val; rw [if_neg (by decide)])]

/-- The host's quotient of two vectors, at an index. -/
theorem hostDivf_apply {s : Shape} (u v : FVec Ideal s .f32) (n : s.Idx) :
    Host.divf (F := Ideal) (φ := .f32) u v n = Ideal.div (u n) (v n) := rfl

/-- The arithmetic of the mean, on any arrays: if `inv n = 1 / c n` with `c n ≠ 0`, then `S · inv` (the reciprocal laid
    along every column) is `S / c` where the reference reads its divisor. -/
theorem mean_core (S : FVec Ideal Cert.KernelIdeal.S100000x128 .f32) (inv c : FVec Ideal Cert.KernelIdeal.S100000 .f32)
    (h1 : Cert.KernelIdeal.S100000.BroadcastsInDim Cert.KernelIdeal.S100000x1 (![0] : Fin 1 → Fin Cert.KernelIdeal.S100000x1.rank))
    (h2 : Cert.KernelIdeal.S100000x1.BroadcastsInDim Cert.KernelIdeal.S100000x128 (![0, 1] : Fin 2 → Fin Cert.KernelIdeal.S100000x128.rank))
    (hinv : ∀ n, inv n = Ideal.div 1 (c n)) (hne : ∀ n, c n ≠ 0) (i : Cert.KernelIdeal.S100000x128.Idx) :
    mulf S (broadcastInDim Cert.KernelIdeal.S100000x128 ![0, 1] h2 (broadcastInDim Cert.KernelIdeal.S100000x1 ![0] h1 inv)) i
      = FloatOps.hostDivf (S i) (c (idx_main_v20 (idx_main_v21 i))) := by
  rw [ValueIdx.mulf_apply, perNode_apply, hinv, Ideal.hostDivf_def]
  exact mul_one_div_eq_div _ _ (hne _)

theorem invDeg_at (a0 : (⟨Cert.KernelIdeal.S2x600000, .i32⟩ : BufTy).Contents (Elt Ideal)) (n : Cert.KernelIdeal.S100000.Idx) :
    invDeg (F := Ideal) (dstOf a0) n = Ideal.div 1 (val_main_v19 (F := Ideal) a0 n) := by
  rw [invDeg_eq, hostDivf_apply, one_at]

/-- THE MEAN AGGREGATION: the summed messages times `1 / c` is the summed messages over `c`, because `c = max(count, 1)`
    is never zero. -/
theorem meanAgg_eq (a0 : (⟨Cert.KernelIdeal.S2x600000, .i32⟩ : BufTy).Contents (Elt Ideal)) (x : FVec Ideal Cert.KernelIdeal.S100000x128 .f32) :
    meanAgg (F := Ideal) (srcOf a0) (dstOf a0) (invDeg (dstOf a0)) x = val_main_v22 (F := Ideal) a0 x := by
  funext i
  rw [val_main_v22_apply, val_main_v21_apply, val_main_v20_apply, ← msgSum_eq]
  unfold meanAgg
  exact mean_core _ _ _ _ _ (invDeg_at a0) (divisor_ne_zero a0) i

theorem lidx_eq (i : Cert.KernelIdeal.S100000x128.Idx) (k : Fin 128) : lidx_main_v23 i k = ix2 (row i) k := by
  funext a
  match a with
  | ⟨0, _⟩ => rfl
  | ⟨1, _⟩ => rfl
theorem ridx_eq (i : Cert.KernelIdeal.S100000x128.Idx) (k : Fin 128) : ridx_main_v23 i k = ix2 k (col i) := by
  funext a
  match a with
  | ⟨0, _⟩ => rfl
  | ⟨1, _⟩ => rfl

theorem lidx27_eq (i : Cert.KernelIdeal.S100000x128.Idx) (k : Fin 128) : lidx_main_v27 i k = ix2 (row i) k := by
  funext a
  match a with
  | ⟨0, _⟩ => rfl
  | ⟨1, _⟩ => rfl
theorem ridx27_eq (i : Cert.KernelIdeal.S100000x128.Idx) (k : Fin 128) : ridx_main_v27 i k = ix2 k (col i) := by
  funext a
  match a with
  | ⟨0, _⟩ => rfl
  | ⟨1, _⟩ => rfl

/-- The bias read where the reference reads it (a vector laid along every row) is the kernel's one-row matrix at that column. -/
theorem bias_eq (b : FVec Ideal Cert.KernelIdeal.S128 .f32) (i : Cert.KernelIdeal.S100000x128.Idx) :
    biasRow (F := Ideal) b (ix2 (0 : Fin 1) (col i)) = b (idx_main_v24 (idx_main_v25 i)) := by
  unfold biasRow
  rw [shapeCast_a_1a_apply]
  congr 1
  funext a
  match a with
  | ⟨0, _⟩ => rfl

/-- A sum of products read at indices that ARE row `n` against column `j` is `rowDot` at `(n, j)`. -/
theorem sum_as_rowDot {R K C : Nat} (a : (⟨2, ![R, K]⟩ : Shape).Idx → EReal) (w : (⟨2, ![K, C]⟩ : Shape).Idx → EReal)
    (i : (⟨2, ![R, C]⟩ : Shape).Idx) (L : Fin K → (⟨2, ![R, K]⟩ : Shape).Idx) (Rr : Fin K → (⟨2, ![K, C]⟩ : Shape).Idx)
    (hL : ∀ k, L k = ix2 (row i) k) (hR : ∀ k, Rr k = ix2 k (col i)) :
    ∑ k : Fin K, a (L k) * w (Rr k) = rowDot a w i := by
  unfold rowDot
  exact Finset.sum_congr rfl fun k _ => by rw [hL k, hR k]

/-- The arithmetic of one layer, on any arrays: `(A·wl + x·wr) + β` regrouped as `(A·wl + β) + x·wr`. -/
theorem layer_core (A x : FVec Ideal Cert.KernelIdeal.S100000x128 .f32) (wl wr : FVec Ideal Cert.KernelIdeal.S128x128 .f32)
    (bk : FVec Ideal Cert.KernelIdeal.S1x128 .f32) (β : EReal) (i : Cert.KernelIdeal.S100000x128.Idx) (hb : bk (ix2 (0 : Fin 1) (col i)) = β) :
    combine A x wl wr bk i = FloatOps.addf (F := Ideal) (φ := .f32) (FloatOps.addf (F := Ideal) (φ := .f32) (rowDot A wl i) β) (rowDot x wr i) := by
  unfold combine
  rw [hb, Ideal.addf_def, Ideal.addf_def]
  exact add_add_swap _ _ _

/-- ONE LAYER: `(a·wl + x·wr) + b` on the kernel's aggregation is the reference's `(a·wl + b) + x·wr` on its own. -/
theorem layer_eq (a0 : (⟨Cert.KernelIdeal.S2x600000, .i32⟩ : BufTy).Contents (Elt Ideal)) (x : FVec Ideal Cert.KernelIdeal.S100000x128 .f32)
    (wl : FVec Ideal Cert.KernelIdeal.S128x128 .f32) (b : FVec Ideal Cert.KernelIdeal.S128 .f32) (wr : FVec Ideal Cert.KernelIdeal.S128x128 .f32) :
    combine (meanAgg (F := Ideal) (srcOf a0) (dstOf a0) (invDeg (dstOf a0)) x) x wl wr (biasRow (F := Ideal) b)
      = val_main_v28 (F := Ideal) a0 x wl b wr := by
  funext i
  rw [val_main_v28_apply, val_main_v26_apply, val_main_v23_apply, val_main_v27_apply, val_main_v25_apply, val_main_v24_apply, ← meanAgg_eq]
  rw [sum_as_rowDot (meanAgg (F := Ideal) (srcOf a0) (dstOf a0) (invDeg (dstOf a0)) x) wl i (lidx_main_v23 i) (ridx_main_v23 i) (lidx_eq i) (ridx_eq i),
    sum_as_rowDot x wr i (lidx_main_v27 i) (ridx_main_v27 i) (lidx27_eq i) (ridx27_eq i)]
  exact layer_core _ _ _ _ _ _ i (bias_eq b i)

/-- THE FIRST LAYER with its rectifier. -/
theorem layer1_eq (a0 : (⟨Cert.KernelIdeal.S2x600000, .i32⟩ : BufTy).Contents (Elt Ideal)) (a2 : FVec Ideal Cert.KernelIdeal.S100000x128 .f32)
    (a3 : FVec Ideal Cert.KernelIdeal.S128x128 .f32) (a4 : FVec Ideal Cert.KernelIdeal.S128 .f32) (a5 : FVec Ideal Cert.KernelIdeal.S128x128 .f32) :
    layer1 a0 a2 a3 a4 a5 = val_main_v29 (F := Ideal) a0 a2 a3 a4 a5 := by
  funext i
  rw [val_main_v29_apply, ← layer_eq, val_main_call0_v0_apply, val_main_call0_cst_apply, Ideal.maximumf_def, Ideal.ofBits_def]
  unfold layer1 combineMax
  rfl

/-- The reference spells the index columns, the zero arrays, the divisor and the bias rows of its second layer by
    the same operations as those of its first. -/
theorem wrap_again (a0 : (⟨Cert.KernelIdeal.S2x600000, .i32⟩ : BufTy).Contents (Elt Ideal)) :
    val_main_v35 (F := Ideal) a0 = val_main_v9 (F := Ideal) a0 := by
  unfold val_main_v35 val_main_v34 val_main_v33 val_main_v32 val_main_v31 val_main_v30 val_main_c_4 val_main_c_5
    val_main_v9 val_main_v8 val_main_v7 val_main_v6 val_main_v5 val_main_v4 val_main_c val_main_c_0
  rfl
theorem dstCol_again (a0 : (⟨Cert.KernelIdeal.S2x600000, .i32⟩ : BufTy).Contents (Elt Ideal)) :
    val_main_v38 (F := Ideal) a0 = val_main_v12 (F := Ideal) a0 := by
  unfold val_main_v38 val_main_v12
  rfl
theorem zeros_again : val_main_v37 (F := Ideal) = val_main_v11 (F := Ideal) := by
  unfold val_main_v37 val_main_v11 val_main_cst_6 val_main_cst
  rfl
theorem divisor_again (a0 : (⟨Cert.KernelIdeal.S2x600000, .i32⟩ : BufTy).Contents (Elt Ideal)) :
    val_main_v47 (F := Ideal) a0 = val_main_v21 (F := Ideal) a0 := by
  unfold val_main_v47 val_main_v46 val_main_v45 val_main_v44 val_main_v43 val_main_v42 val_main_v41 val_main_v40
    val_main_cst_7 val_main_cst_8 val_main_cst_9
    val_main_v21 val_main_v20 val_main_v19 val_main_v18 val_main_v17 val_main_v16 val_main_v15 val_main_v14
    val_main_cst_1 val_main_cst_2 val_main_cst_3
  rfl
theorem biasAll_again (b : FVec Ideal Cert.KernelIdeal.S128 .f32) : val_main_v51 (F := Ideal) b = val_main_v25 (F := Ideal) b := by
  unfold val_main_v51 val_main_v50 val_main_v25 val_main_v24
  rfl

/-- The reference's second layer is its first layer's expression on the first layer's output. -/
theorem second_is_first (a0 : (⟨Cert.KernelIdeal.S2x600000, .i32⟩ : BufTy).Contents (Elt Ideal)) (a2 : FVec Ideal Cert.KernelIdeal.S100000x128 .f32)
    (a3 : FVec Ideal Cert.KernelIdeal.S128x128 .f32) (a4 : FVec Ideal Cert.KernelIdeal.S128 .f32) (a5 a6 : FVec Ideal Cert.KernelIdeal.S128x128 .f32)
    (a7 : FVec Ideal Cert.KernelIdeal.S128 .f32) (a8 : FVec Ideal Cert.KernelIdeal.S128x128 .f32) :
    val_main_v54 (F := Ideal) a0 a2 a3 a4 a5 a6 a7 a8 = val_main_v28 (F := Ideal) a0 (val_main_v29 (F := Ideal) a0 a2 a3 a4 a5) a6 a7 a8 := by
  unfold val_main_v54 val_main_v53 val_main_v52 val_main_v49 val_main_v48 val_main_v39 val_main_v36
  rw [wrap_again, dstCol_again, zeros_again, divisor_again, biasAll_again]
  unfold val_main_v28 val_main_v27 val_main_v26 val_main_v23 val_main_v22 val_main_v13 val_main_v10
  rfl

/-- THE SECOND LAYER. -/
theorem layer2_eq (a0 : (⟨Cert.KernelIdeal.S2x600000, .i32⟩ : BufTy).Contents (Elt Ideal)) (a2 : FVec Ideal Cert.KernelIdeal.S100000x128 .f32)
    (a3 : FVec Ideal Cert.KernelIdeal.S128x128 .f32) (a4 : FVec Ideal Cert.KernelIdeal.S128 .f32) (a5 a6 : FVec Ideal Cert.KernelIdeal.S128x128 .f32)
    (a7 : FVec Ideal Cert.KernelIdeal.S128 .f32) (a8 : FVec Ideal Cert.KernelIdeal.S128x128 .f32) :
    layer2 a0 (layer1 a0 a2 a3 a4 a5) a6 a7 a8 = val_main_v54 (F := Ideal) a0 a2 a3 a4 a5 a6 a7 a8 := by
  unfold layer2
  rw [layer_eq, layer1_eq, second_is_first]

/-! ## The scorer -/

/-- The rows of the two ends of every link are gathered by the same operations in both programs. -/
theorem pickSrc_eq (a0 : (⟨Cert.KernelIdeal.S2x600000, .i32⟩ : BufTy).Contents (Elt Ideal)) (a1 : (⟨Cert.KernelIdeal.S2x200000, .i32⟩ : BufTy).Contents (Elt Ideal))
    (a2 : FVec Ideal Cert.KernelIdeal.S100000x128 .f32) (a3 : FVec Ideal Cert.KernelIdeal.S128x128 .f32) (a4 : FVec Ideal Cert.KernelIdeal.S128 .f32)
    (a5 a6 : FVec Ideal Cert.KernelIdeal.S128x128 .f32) (a7 : FVec Ideal Cert.KernelIdeal.S128 .f32) (a8 : FVec Ideal Cert.KernelIdeal.S128x128 .f32) :
    pick (F := Ideal) (val_main_v54 (F := Ideal) a0 a2 a3 a4 a5 a6 a7 a8) (labSrc a1) = val_main_v65 (F := Ideal) a0 a1 a2 a3 a4 a5 a6 a7 a8 := by
  unfold pick labSrc val_main_v65 val_main_v64 val_main_v63 val_main_v62 val_main_v61 val_main_v60 val_main_v59 val_main_v56 val_main_v55
    val_main_c_10 val_main_c_11
  rfl
theorem pickDst_eq (a0 : (⟨Cert.KernelIdeal.S2x600000, .i32⟩ : BufTy).Contents (Elt Ideal)) (a1 : (⟨Cert.KernelIdeal.S2x200000, .i32⟩ : BufTy).Contents (Elt Ideal))
    (a2 : FVec Ideal Cert.KernelIdeal.S100000x128 .f32) (a3 : FVec Ideal Cert.KernelIdeal.S128x128 .f32) (a4 : FVec Ideal Cert.KernelIdeal.S128 .f32)
    (a5 a6 : FVec Ideal Cert.KernelIdeal.S128x128 .f32) (a7 : FVec Ideal Cert.KernelIdeal.S128 .f32) (a8 : FVec Ideal Cert.KernelIdeal.S128x128 .f32) :
    pick (F := Ideal) (val_main_v54 (F := Ideal) a0 a2 a3 a4 a5 a6 a7 a8) (labDst a1) = val_main_v72 (F := Ideal) a0 a1 a2 a3 a4 a5 a6 a7 a8 := by
  unfold pick labDst val_main_v72 val_main_v71 val_main_v70 val_main_v69 val_main_v68 val_main_v67 val_main_v66 val_main_v58 val_main_v57
    val_main_c_12 val_main_c_13
  rfl

theorem lidx74_eq (i : Cert.KernelIdeal.S200000x1.Idx) (k : Fin 256) : lidx_main_v74 i k = ix2 (row i) k := by
  funext a
  match a with
  | ⟨0, _⟩ => rfl
  | ⟨1, _⟩ => rfl
theorem ridx74_eq (i : Cert.KernelIdeal.S200000x1.Idx) (k : Fin 256) : ridx_main_v74 i k = ix2 k (col i) := by
  funext a
  match a with
  | ⟨0, _⟩ => rfl
  | ⟨1, _⟩ => rfl

/-- Two 128-wide matrices joined side by side: a column below 128 reads the left one. -/
theorem joined_left (p q : FVec Ideal Cert.ReferenceIdeal.S200000x128 .f32)
    (h : Shape.Concatenates [Cert.ReferenceIdeal.S200000x128, Cert.ReferenceIdeal.S200000x128] Cert.ReferenceIdeal.S200000x256 1)
    (n : Fin 200000) (k : Fin 128) :
    concatenate Cert.ReferenceIdeal.S200000x256 1 [⟨Cert.ReferenceIdeal.S200000x128, p⟩, ⟨Cert.ReferenceIdeal.S200000x128, q⟩] h
      (ix2 n (⟨k.val, by omega⟩ : Fin 256)) = p (ix2 n k) :=
  concatenate_pair_apply_left 1 p q h _ rfl (ix2 n k) (fun b => match b with
    | ⟨0, _⟩ => rfl
    | ⟨1, _⟩ => rfl)
/-- A column from 128 on reads the right one, 128 columns back. -/
theorem joined_right (p q : FVec Ideal Cert.ReferenceIdeal.S200000x128 .f32)
    (h : Shape.Concatenates [Cert.ReferenceIdeal.S200000x128, Cert.ReferenceIdeal.S200000x128] Cert.ReferenceIdeal.S200000x256 1)
    (n : Fin 200000) (k : Fin 128) :
    concatenate Cert.ReferenceIdeal.S200000x256 1 [⟨Cert.ReferenceIdeal.S200000x128, p⟩, ⟨Cert.ReferenceIdeal.S200000x128, q⟩] h
      (ix2 n (⟨128 + k.val, by omega⟩ : Fin 256)) = q (ix2 n k) :=
  concatenate_pair_apply_right 1 p q h _ rfl rfl (ix2 n k) (fun b hb => match b, hb with
    | ⟨0, _⟩, _ => rfl
    | ⟨1, _⟩, hb => absurd rfl hb) (by show k.val + 128 = 128 + k.val; omega)

/-- A sum over 256 terms is the sum of its two halves. -/
theorem sum_halves (f : Fin 256 → EReal) :
    ∑ k : Fin 256, f k = ∑ k : Fin 128, f ⟨k.val, by omega⟩ + ∑ k : Fin 128, f ⟨128 + k.val, by omega⟩ := by
  have h := Fin.sum_univ_add (a := 128) (b := 128) (fun k : Fin (128 + 128) => f ⟨k.val, k.isLt⟩)
  exact h

/-- The one bias number read where the reference reads it is the kernel's 1 × 1 matrix at its one entry. -/
theorem biasOne_eq (b : FVec Ideal Cert.KernelIdeal.S1 .f32) (i : Cert.KernelIdeal.S200000x1.Idx) :
    biasOne (F := Ideal) b (ix2 (0 : Fin 1) (col i)) = b (idx_main_v75 (idx_main_v76 i)) := by
  unfold biasOne
  rw [shapeCast_a_1a_apply]
  congr 1
  funext a
  match a with
  | ⟨0, _⟩ =>
    apply Fin.ext
    have h : (i 1).val < 1 := (i 1).isLt
    show (i 1).val = 0
    omega

/-- The arithmetic of the scorer, on any arrays: the two 128-term products against the two halves of a 256 × 1 column
    are the two halves of the 256-term product of the joined rows with the whole column. -/
theorem score_core (p q : FVec Ideal Cert.ReferenceIdeal.S200000x128 .f32)
    (h : Shape.Concatenates [Cert.ReferenceIdeal.S200000x128, Cert.ReferenceIdeal.S200000x128] Cert.ReferenceIdeal.S200000x256 1)
    (w : FVec Ideal Cert.KernelIdeal.S256x1 .f32)
    (hlo : Cert.KernelIdeal.S256x1.Slices ![0, 0] Cert.KernelIdeal.S128x1) (hhi : Cert.KernelIdeal.S256x1.Slices ![128, 0] Cert.KernelIdeal.S128x1)
    (bk : FVec Ideal Cert.KernelIdeal.S1x1 .f32) (β : EReal) (i : Cert.KernelIdeal.S200000x1.Idx) (hb : bk (ix2 (0 : Fin 1) (col i)) = β) :
    combine p q (extractStridedSlice Cert.KernelIdeal.S128x1 ![0, 0] w hlo) (extractStridedSlice Cert.KernelIdeal.S128x1 ![128, 0] w hhi) bk i
      = FloatOps.addf (F := Ideal) (φ := .f32) (∑ k : Fin 256,
          (concatenate Cert.ReferenceIdeal.S200000x256 1 [⟨Cert.ReferenceIdeal.S200000x128, p⟩, ⟨Cert.ReferenceIdeal.S200000x128, q⟩] h) (lidx_main_v74 i k)
            * w (ridx_main_v74 i k)) β := by
  unfold combine
  rw [hb, Ideal.addf_def, sum_halves]
  congr 1
  congr 1
  · unfold rowDot
    refine Finset.sum_congr rfl fun k _ => ?_
    rw [lidx74_eq, ridx74_eq, joined_left]
    congr 1
    exact slice2_axis0_apply 0 w hlo k (col i) ⟨k.val, by omega⟩ (Nat.zero_add _).symm
  · unfold rowDot
    refine Finset.sum_congr rfl fun k _ => ?_
    rw [lidx74_eq, ridx74_eq, joined_right]
    congr 1
    exact slice2_axis0_apply 128 w hhi k (col i) ⟨128 + k.val, by omega⟩ rfl

/-- THE SCORE COLUMN. -/
theorem scoreCol_eq (a0 : (⟨Cert.KernelIdeal.S2x600000, .i32⟩ : BufTy).Contents (Elt Ideal)) (a1 : (⟨Cert.KernelIdeal.S2x200000, .i32⟩ : BufTy).Contents (Elt Ideal))
    (a2 : FVec Ideal Cert.KernelIdeal.S100000x128 .f32) (a3 : FVec Ideal Cert.KernelIdeal.S128x128 .f32) (a4 : FVec Ideal Cert.KernelIdeal.S128 .f32)
    (a5 a6 : FVec Ideal Cert.KernelIdeal.S128x128 .f32) (a7 : FVec Ideal Cert.KernelIdeal.S128 .f32) (a8 : FVec Ideal Cert.KernelIdeal.S128x128 .f32)
    (a9 : FVec Ideal Cert.KernelIdeal.S256x1 .f32) (a10 : FVec Ideal Cert.KernelIdeal.S1 .f32) :
    scoreCol a1 (val_main_v54 (F := Ideal) a0 a2 a3 a4 a5 a6 a7 a8) a9 a10 = val_main_v77 (F := Ideal) a0 a1 a2 a3 a4 a5 a6 a7 a8 a9 a10 := by
  funext i
  rw [val_main_v77_apply, val_main_v74_apply, val_main_v76_apply, val_main_v75_apply]
  unfold val_main_v73
  rw [← pickSrc_eq a0 a1 a2 a3 a4 a5 a6 a7 a8, ← pickDst_eq a0 a1 a2 a3 a4 a5 a6 a7 a8]
  unfold scoreCol colLo colHi
  exact score_core _ _ _ a9 _ _ _ _ i (biasOne_eq a10 i)

/-! ## The result -/

/-- THE KERNEL PROGRAM'S RESULT IS THE REFERENCE'S, as functions of the eleven arguments over the extended reals. -/
theorem score_eq (a0 : (⟨Cert.KernelIdeal.S2x600000, .i32⟩ : BufTy).Contents (Elt Ideal)) (a1 : (⟨Cert.KernelIdeal.S2x200000, .i32⟩ : BufTy).Contents (Elt Ideal))
    (a2 : FVec Ideal Cert.KernelIdeal.S100000x128 .f32) (a3 : FVec Ideal Cert.KernelIdeal.S128x128 .f32) (a4 : FVec Ideal Cert.KernelIdeal.S128 .f32)
    (a5 a6 : FVec Ideal Cert.KernelIdeal.S128x128 .f32) (a7 : FVec Ideal Cert.KernelIdeal.S128 .f32) (a8 : FVec Ideal Cert.KernelIdeal.S128x128 .f32)
    (a9 : FVec Ideal Cert.KernelIdeal.S256x1 .f32) (a10 : FVec Ideal Cert.KernelIdeal.S1 .f32) :
    score a0 a1 a2 a3 a4 a5 a6 a7 a8 a9 a10 = val_main_v78 (F := Ideal) a0 a1 a2 a3 a4 a5 a6 a7 a8 a9 a10 := by
  unfold score flat val_main_v78
  rw [layer2_eq, scoreCol_eq]

end Cert.Bridge

end
-- ==== Proof.lean ====
/-
  A two-layer mean-aggregation graph network with a link scorer, as a kernel program of three regions against a plain
  array program, compared over the extended reals.

  Both programs gather node rows at the edge sources and scatter-add them at the edge destinations with the same host
  operations. They differ in three places, and each is one law of the extended reals:
  * the mean: the kernel program multiplies the summed messages by `1 / max(count, 1)`, the reference divides them by
    `max(count, 1)`; the divisor is at least one, so it is not zero, and both are the product with its inverse;
  * a layer: the kernel computes `(a·wl + x·wr) + b` block of rows by block of rows, the reference `(a·wl + b) + x·wr` on
    whole arrays; addition is commutative and associative, and an entry reads its own row only;
  * the scorer: the kernel multiplies the two ends' rows with the two halves of the 256 × 1 column, the reference joins
    the rows and multiplies once; a 256-term sum is the sum of its halves.
  Narrowing a float to a shorter format is the identity over the extended reals, so the matrix unit's products are plain
  sums.

  The kernel program's run ends with its result buffer at the last boundary's contents; those contents, read back
  through the three regions' closed forms and the host stretches between them, are `score` of the arguments; the
  reference's run ends at its composed term, which is the same function (`Bridge.score_eq`). The frames are the
  generated ones, and the idealization rewrote nothing.
-/
import proofs.«164227_j8246337208621_1_alg».proof.Defs
import proofs.«164227_j8246337208621_1_alg».proof.Proof.Gen.Kernel
import proofs.«164227_j8246337208621_1_alg».proof.Proof.Gen.Kernel.Skeleton
import proofs.«164227_j8246337208621_1_alg».proof.Proof.Gen.Kernel.Launch
import proofs.«164227_j8246337208621_1_alg».proof.Proof.Gen.Kernel.Points
import proofs.«164227_j8246337208621_1_alg».proof.Proof.Gen.Kernel.Frame
import proofs.«164227_j8246337208621_1_alg».proof.Proof.Gen.KernelIdeal
import proofs.«164227_j8246337208621_1_alg».proof.Proof.Gen.KernelIdeal.Skeleton
import proofs.«164227_j8246337208621_1_alg».proof.Proof.Gen.KernelIdeal.Launch
import proofs.«164227_j8246337208621_1_alg».proof.Proof.Gen.KernelIdeal.Points
import proofs.«164227_j8246337208621_1_alg».proof.Proof.Gen.KernelIdeal.Frame
import proofs.«164227_j8246337208621_1_alg».proof.Proof.Gen.ReferenceIdeal
import proofs.«164227_j8246337208621_1_alg».proof.Proof.Gen.ReferenceIdeal.Run
import proofs.«164227_j8246337208621_1_alg».proof.Proof.Gen.ReferenceIdeal.Read
import proofs.«164227_j8246337208621_1_alg».proof.Proof.Gen.Pre_finite_inputs
import proofs.«164227_j8246337208621_1_alg».proof.Proof.ValueRun
import proofs.«164227_j8246337208621_1_alg».proof.Proof.HostSide
import proofs.«164227_j8246337208621_1_alg».proof.Proof.Bridge
import Idealize.ShloMosaic.Adequacy
import Idealize.ShloMosaic.Init

noncomputable section

namespace Cert.Proof

open Idealize.ShloMosaic Idealize.ShloMosaic.TcCoe Idealize.SL.Sem

/-- The three programs run, fault nowhere, and leave their arguments as launched: the kernel programs by their generated
    frames, the reference by its generated run with the result dropped. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the same result: the kernel program's is `score`
    of its arguments, the reference's is its composed term of its own, and the two are one function. -/
theorem algebraic : Cert.algebraic_KernelIdeal_ReferenceIdeal := by
  intro m ρ m' ρ' _ hagree
  refine ⟨_, (θ_run Cert.KernelIdeal.defs _ _).mono
      (fun r h c => ⟨(h c).1.trans (Cert.KernelIdeal.HostSide.result_at m ρ c), (h c).2⟩)
      (Cert.KernelIdeal.ValueRun.run (F := Ideal) m ρ), ?_⟩
  refine (θ_run Cert.ReferenceIdeal.defs _ _).mono (fun r h c => ⟨(h c).1.trans ?_, (h c).2⟩)
    (Cert.ReferenceIdeal.Value.run (F := Ideal) m' ρ')
  obtain ⟨e0, e1, e2, e3, e4, e5, e6, e7, e8, e9, e10⟩ := hagree c
  rw [Cert.ReferenceIdeal.Read.val_main_v78_eq, e0, e1, e2, e3, e4, e5, e6, e7, e8, e9, e10]
  exact (Cert.Bridge.score_eq _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
